-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S32x512x48x48 : Shape := ⟨4, ![32, 512, 48, 48]⟩
abbrev S512 : Shape := ⟨1, ![512]⟩
abbrev S32x25x2 : Shape := ⟨3, ![32, 25, 2]⟩
abbrev S32 : Shape := ⟨1, ![32]⟩
abbrev S2048x512 : Shape := ⟨2, ![2048, 512]⟩
abbrev S512x1024 : Shape := ⟨2, ![512, 1024]⟩
abbrev S1024 : Shape := ⟨1, ![1024]⟩
abbrev S3072x1024 : Shape := ⟨2, ![3072, 1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S32x512x48x48 : S_.BroadcastsInDim S32x512x48x48 (![] : Fin 0 → Fin S32x512x48x48.rank)
  reducesTo_S32x512x48x48_S_d0_1_2_3 : S32x512x48x48.ReducesTo [0, 1, 2, 3] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_

variable [Facts]

def fn_part2 {F : FTy → Type} [FloatOps F] (main_arg11 : FVec F S3072x1024 .f32) (main_arg12 : FVec F S1024 .f32) (main_v33 : IVec S_ 1) : IVec S_ 1 :=
  let main_v34 : FVec F S3072x1024 .f32 := Host.absf main_arg11
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S1024 .f32 := Host.absf main_arg12
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg8 : FVec F S512 .f32) (main_arg9 : FVec F S512x1024 .f32) (main_arg10 : FVec F S1024 .f32) (main_arg11 : FVec F S3072x1024 .f32) (main_arg12 : FVec F S1024 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg9
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024 .f32 := Host.absf main_arg10
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg11 main_arg12 main_v33

def fn {F : FTy → Type} [FloatOps F] (main_arg0 : FVec F S512x2048 .f32) (main_arg1 : FVec F S32x512x48x48 .f32) (main_arg2 : FVec F S32x512x48x48 .f32) (main_arg3 : IVec S512 32) (main_arg4 : IVec S32x25x2 32) (main_arg5 : IVec S32 32) (main_arg6 : IVec S32 32) (main_arg7 : FVec F S2048x512 .f32) (main_arg8 : FVec F S512 .f32) (main_arg9 : FVec F S512x1024 .f32) (main_arg10 : FVec F S1024 .f32) (main_arg11 : FVec F S3072x1024 .f32) (main_arg12 : FVec F S1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S32x512x48x48 .f32 := Host.absf main_arg1
  let main_cst_0 : FVec F S_ .f32 := constant S_ .f32 0x7F800000#32
  let main_v5 : FVec F S32x512x48x48 .f32 := broadcastInDim S32x512x48x48 ![] bcast_S_S32x512x48x48 main_cst_0
  let main_v6 : IVec S32x512x48x48 1 := cmpf .olt main_v4 main_v5
  let main_c_1 : IVec S_ 1 := constantI S_ 1 1#1
  let main_v7 : IVec S_ 1 := (fun x v => Host.reduce IntOp.andi x v reducesTo_S32x512x48x48_S_d0_1_2_3 h_S_) main_v6 main_c_1
  let main_v8 : IVec S_ 1 := andi main_v3 main_v7
  let main_v9 : FVec F S32x512x48x48 .f32 := Host.absf main_arg2
  let main_cst_2 : FVec F S_ .f32 := constant S_ .f32 0x7F800000#32
  let main_v10 : FVec F S32x512x48x48 .f32 := broadcastInDim S32x512x48x48 ![] bcast_S_S32x512x48x48 main_cst_2
  let main_v11 : IVec S32x512x48x48 1 := cmpf .olt main_v9 main_v10
  let main_c_3 : IVec S_ 1 := constantI S_ 1 1#1
  let main_v12 : IVec S_ 1 := (fun x v => Host.reduce IntOp.andi x v reducesTo_S32x512x48x48_S_d0_1_2_3 h_S_) main_v11 main_c_3
  let main_v13 : IVec S_ 1 := andi main_v8 main_v12
  let main_v14 : FVec F S2048x512 .f32 := Host.absf main_arg7
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg8 main_arg9 main_arg10 main_arg11 main_arg12 main_v13 main_v16
-- ==== Kernel.lean ====
abbrev S512x2048 : Shape := ⟨2, ![512, 2048]⟩
abbrev S32x512x48x48 : Shape := ⟨4, ![32, 512, 48, 48]⟩
abbrev S512 : Shape := ⟨1, ![512]⟩
abbrev S32x25x2 : Shape := ⟨3, ![32, 25, 2]⟩
abbrev S32 : Shape := ⟨1, ![32]⟩
abbrev S2048x512 : Shape := ⟨2, ![2048, 512]⟩
abbrev S512x1024 : Shape := ⟨2, ![512, 1024]⟩
abbrev S1024 : Shape := ⟨1, ![1024]⟩
abbrev S3072x1024 : Shape := ⟨2, ![3072, 1024]⟩
abbrev S2048x1024 : Shape := ⟨2, ![2048, 1024]⟩
abbrev S1024x1024 : Shape := ⟨2, ![1024, 1024]⟩
abbrev S1x512 : Shape := ⟨2, ![1, 512]⟩
abbrev S1x1024 : Shape := ⟨2, ![1, 1024]⟩
abbrev S32x16x2048 : Shape := ⟨3, ![32, 16, 2048]⟩
abbrev S32x512x2304 : Shape := ⟨3, ![32, 512, 2304]⟩
abbrev S32x16x512 : Shape := ⟨3, ![32, 16, 512]⟩
abbrev S1x16x2048 : Shape := ⟨3, ![1, 16, 2048]⟩
abbrev S1x512x2304 : Shape := ⟨3, ![1, 512, 2304]⟩
abbrev S1x16x512 : Shape := ⟨3, ![1, 16, 512]⟩
abbrev S16x2048 : Shape := ⟨2, ![16, 2048]⟩
abbrev S16x512 : Shape := ⟨2, ![16, 512]⟩
abbrev S512x2304 : Shape := ⟨2, ![512, 2304]⟩
abbrev S16x2304 : Shape := ⟨2, ![16, 2304]⟩
abbrev S16 : Shape := ⟨1, ![16]⟩
abbrev S16x1 : Shape := ⟨2, ![16, 1]⟩
abbrev S512x512 : Shape := ⟨2, ![512, 512]⟩
abbrev S256x2048 : Shape := ⟨2, ![256, 2048]⟩
abbrev S256x512 : Shape := ⟨2, ![256, 512]⟩
abbrev S256x1024 : Shape := ⟨2, ![256, 1024]⟩
abbrev S32x16x1024 : Shape := ⟨3, ![32, 16, 1024]⟩
abbrev S32x25x1 : Shape := ⟨3, ![32, 25, 1]⟩
abbrev S32x25 : Shape := ⟨2, ![32, 25]⟩
abbrev S_ : Shape := ⟨0, ![]⟩
abbrev S1 : Shape := ⟨1, ![1]⟩
abbrev S1x1x1 : Shape := ⟨3, ![1, 1, 1]⟩
abbrev S32x25x1024 : Shape := ⟨3, ![32, 25, 1024]⟩
abbrev S800x1024 : Shape := ⟨2, ![800, 1024]⟩

abbrev nBuf : Space → Nat
  | .hbm => 84
  | .vmem => 21
  | .smem => 0
  | _ => 0

abbrev bufTy : (tb : Table) → Fin (tcTables nBuf tb) → BufTy
  | .hbm, ⟨0, _⟩ => ⟨S512x2048, .f32⟩
  | .hbm, ⟨1, _⟩ => ⟨S32x512x48x48, .f32⟩
  | .hbm, ⟨2, _⟩ => ⟨S32x512x48x48, .f32⟩
  | .hbm, ⟨3, _⟩ => ⟨S512, .i32⟩
  | .hbm, ⟨4, _⟩ => ⟨S32x25x2, .i32⟩
  | .hbm, ⟨5, _⟩ => ⟨S32, .i32⟩
  | .hbm, ⟨6, _⟩ => ⟨S32, .i32⟩
  | .hbm, ⟨7, _⟩ => ⟨S2048x512, .f32⟩
  | .hbm, ⟨8, _⟩ => ⟨S512, .f32⟩
  | .hbm, ⟨9, _⟩ => ⟨S512x1024, .f32⟩
  | .hbm, ⟨10, _⟩ => ⟨S1024, .f32⟩
  | .hbm, ⟨11, _⟩ => ⟨S3072x1024, .f32⟩
  | .hbm, ⟨12, _⟩ => ⟨S1024, .f32⟩
  | .hbm, ⟨13, _⟩ => ⟨S2048x512, .bf16⟩
  | .hbm, ⟨14, _⟩ => ⟨S512x1024, .bf16⟩
  | .hbm, ⟨15, _⟩ => ⟨S2048x1024, .f32⟩
  | .hbm, ⟨16, _⟩ => ⟨S2048x1024, .bf16⟩
  | .hbm, ⟨17, _⟩ => ⟨S1024x1024, .f32⟩
  | .hbm, ⟨18, _⟩ => ⟨S1024x1024, .bf16⟩
  | .hbm, ⟨19, _⟩ => ⟨S1x512, .f32⟩
  | .hbm, ⟨20, _⟩ => ⟨S1x1024, .f32⟩
  | .hbm, ⟨21, _⟩ => ⟨S1x1024, .f32⟩
  | .hbm, ⟨22, _⟩ => ⟨S32x16x2048, .f32⟩
  | .hbm, ⟨23, _⟩ => ⟨S32x512x2304, .f32⟩
  | .hbm, ⟨24, _⟩ => ⟨S32x512x2304, .f32⟩
  | .hbm, ⟨25, _⟩ => ⟨S32x16x512, .f32⟩
  | .hbm, ⟨26, _⟩ => ⟨S512x512, .f32⟩
  | .hbm, ⟨27, _⟩ => ⟨S512x1024, .f32⟩
  | .hbm, ⟨28, _⟩ => ⟨S32x16x1024, .f32⟩
  | .hbm, ⟨29, _⟩ => ⟨S32x25x1, .i32⟩
  | .hbm, ⟨30, _⟩ => ⟨S32x25, .i32⟩
  | .hbm, ⟨31, _⟩ => ⟨S32x25x1, .i32⟩
  | .hbm, ⟨32, _⟩ => ⟨S_, .i32⟩
  | .hbm, ⟨33, _⟩ => ⟨S32x25x1, .i32⟩
  | .hbm, ⟨34, _⟩ => ⟨S32x25x1, .i1⟩
  | .hbm, ⟨35, _⟩ => ⟨S_, .i32⟩
  | .hbm, ⟨36, _⟩ => ⟨S32x25x1, .i32⟩
  | .hbm, ⟨37, _⟩ => ⟨S32x25x1, .i32⟩
  | .hbm, ⟨38, _⟩ => ⟨S32x25x1, .i32⟩
  | .hbm, ⟨39, _⟩ => ⟨S1, .i32⟩
  | .hbm, ⟨40, _⟩ => ⟨S_, .i32⟩
  | .hbm, ⟨41, _⟩ => ⟨S32x25x1, .i32⟩
  | .hbm, ⟨42, _⟩ => ⟨S32x25x1, .i1⟩
  | .hbm, ⟨43, _⟩ => ⟨S1x1x1, .i32⟩
  | .hbm, ⟨44, _⟩ => ⟨S32x25x1, .i32⟩
  | .hbm, ⟨45, _⟩ => ⟨S32x25x1, .i1⟩
  | .hbm, ⟨46, _⟩ => ⟨S32x25x1, .i1⟩
  | .hbm, ⟨47, _⟩ => ⟨S_, .i1⟩
  | .hbm, ⟨48, _⟩ => ⟨S32x25, .i1⟩
  | .hbm, ⟨49, _⟩ => ⟨S32x25x1024, .f32⟩
  | .hbm, ⟨50, _⟩ => ⟨S32x25x1024, .i1⟩
  | .hbm, ⟨51, _⟩ => ⟨S_, .f32⟩
  | .hbm, ⟨52, _⟩ => ⟨S32x25x1024, .f32⟩
  | .hbm, ⟨53, _⟩ => ⟨S32x25x1024, .f32⟩
  | .hbm, ⟨54, _⟩ => ⟨S32x25x1, .i32⟩
  | .hbm, ⟨55, _⟩ => ⟨S32x25, .i32⟩
  | .hbm, ⟨56, _⟩ => ⟨S32x25x1, .i32⟩
  | .hbm, ⟨57, _⟩ => ⟨S_, .i32⟩
  | .hbm, ⟨58, _⟩ => ⟨S32x25x1, .i32⟩
  | .hbm, ⟨59, _⟩ => ⟨S32x25x1, .i1⟩
  | .hbm, ⟨60, _⟩ => ⟨S_, .i32⟩
  | .hbm, ⟨61, _⟩ => ⟨S32x25x1, .i32⟩
  | .hbm, ⟨62, _⟩ => ⟨S32x25x1, .i32⟩
  | .hbm, ⟨63, _⟩ => ⟨S32x25x1, .i32⟩
  | .hbm, ⟨64, _⟩ => ⟨S1, .i32⟩
  | .hbm, ⟨65, _⟩ => ⟨S_, .i32⟩
  | .hbm, ⟨66, _⟩ => ⟨S32x25x1, .i32⟩
  | .hbm, ⟨67, _⟩ => ⟨S32x25x1, .i1⟩
  | .hbm, ⟨68, _⟩ => ⟨S1x1x1, .i32⟩
  | .hbm, ⟨69, _⟩ => ⟨S32x25x1, .i32⟩
  | .hbm, ⟨70, _⟩ => ⟨S32x25x1, .i1⟩
  | .hbm, ⟨71, _⟩ => ⟨S32x25x1, .i1⟩
  | .hbm, ⟨72, _⟩ => ⟨S_, .i1⟩
  | .hbm, ⟨73, _⟩ => ⟨S32x25, .i1⟩
  | .hbm, ⟨74, _⟩ => ⟨S32x25x1024, .f32⟩
  | .hbm, ⟨75, _⟩ => ⟨S32x25x1024, .i1⟩
  | .hbm, ⟨76, _⟩ => ⟨S_, .f32⟩
  | .hbm, ⟨77, _⟩ => ⟨S32x25x1024, .f32⟩
  | .hbm, ⟨78, _⟩ => ⟨S32x25x1024, .f32⟩
  | .hbm, ⟨79, _⟩ => ⟨S32x25x1024, .f32⟩
  | .hbm, ⟨80, _⟩ => ⟨S_, .f32⟩
  | .hbm, ⟨81, _⟩ => ⟨S32x25x1024, .f32⟩
  | .hbm, ⟨82, _⟩ => ⟨S32x25x1024, .f32⟩
  | .hbm, ⟨83, _⟩ => ⟨S800x1024, .f32⟩
  | .local _ .vmem, ⟨0, _⟩ => ⟨S1x16x2048, .f32⟩
  | .local _ .vmem, ⟨1, _⟩ => ⟨S1x16x2048, .f32⟩
  | .local _ .vmem, ⟨2, _⟩ => ⟨S1x512x2304, .f32⟩
  | .local _ .vmem, ⟨3, _⟩ => ⟨S1x512x2304, .f32⟩
  | .local _ .vmem, ⟨4, _⟩ => ⟨S1x512x2304, .f32⟩
  | .local _ .vmem, ⟨5, _⟩ => ⟨S1x512x2304, .f32⟩
  | .local _ .vmem, ⟨6, _⟩ => ⟨S2048x512, .bf16⟩
  | .local _ .vmem, ⟨7, _⟩ => ⟨S1x512, .f32⟩
  | .local _ .vmem, ⟨8, _⟩ => ⟨S1x16x512, .f32⟩
  | .local _ .vmem, ⟨9, _⟩ => ⟨S1x16x512, .f32⟩
  | .local _ .vmem, ⟨10, _⟩ => ⟨S256x2048, .f32⟩
  | .local _ .vmem, ⟨11, _⟩ => ⟨S256x2048, .f32⟩
  | .local _ .vmem, ⟨12, _⟩ => ⟨S256x512, .f32⟩
  | .local _ .vmem, ⟨13, _⟩ => ⟨S256x512, .f32⟩
  | .local _ .vmem, ⟨14, _⟩ => ⟨S512x1024, .bf16⟩
  | .local _ .vmem, ⟨15, _⟩ => ⟨S1x1024, .f32⟩
  | .local _ .vmem, ⟨16, _⟩ => ⟨S2048x1024, .bf16⟩
  | .local _ .vmem, ⟨17, _⟩ => ⟨S1024x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_c_2 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_c_3 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v23 : Ref sig .tc := ⟨.hbm, 78, rfl⟩
abbrev main_v24 : Ref sig .tc := ⟨.hbm, 79, rfl⟩
abbrev main_cst : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  slices_S3072x1024_S2048x1024_0_0 : S3072x1024.Slices ![0, 0] S2048x1024
  slices_S3072x1024_S1024x1024_2048_0 : S3072x1024.Slices ![2048, 0] S1024x1024
  shapeCasts_S512_S1x512 : S512.ShapeCasts S1x512
  shapeCasts_S1024_S1x1024 : S1024.ShapeCasts S1x1024
  shapeCasts_S512x2048_S32x16x2048 : S512x2048.ShapeCasts S32x16x2048
  shapeCasts_S32x512x48x48_S32x512x2304 : S32x512x48x48.ShapeCasts S32x512x2304
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  reduces_S16x2304_S16 : S16x2304.Reduces [1] S16
  shapeCasts_S16_S16x1 : S16.ShapeCasts S16x1
  broadcasts_S16x1_S16x2304 : S16x1.Broadcasts S16x2304
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  shapeCasts_S32x16x512_S512x512 : S32x16x512.ShapeCasts S512x512
  inb_S256x2048_S256x2048_0_0 : ∀ a, (![0, 0] : Fin 2 → Nat) a + S256x2048.size a ≤ S256x2048.size a
  h_S256x2048 : 0 < S256x2048.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S512x1024_S32x16x1024 : S512x1024.ShapeCasts S32x16x1024
  slices_S32x25x2_S32x25x1_0_0_0 : S32x25x2.Slices ![0, 0, 0] S32x25x1
  shapeCasts_S32x25x1_S32x25 : S32x25x1.ShapeCasts S32x25
  bcast_S32x25_S32x25x1_0_1 : S32x25.BroadcastsInDim S32x25x1 (![0, 1] : Fin 2 → Fin S32x25x1.rank)
  bcast_S_S32x25x1 : S_.BroadcastsInDim S32x25x1 (![] : Fin 0 → Fin S32x25x1.rank)
  bcast_S1_S1x1x1_2 : S1.BroadcastsInDim S1x1x1 (![2] : Fin 1 → Fin S1x1x1.rank)
  bcast_S1x1x1_S32x25x1_0_1_2 : S1x1x1.BroadcastsInDim S32x25x1 (![0, 1, 2] : Fin 3 → Fin S32x25x1.rank)
  reducesTo_S32x25x1_S32x25_d2 : S32x25x1.ReducesTo [2] S32x25
  h_S_ : 0 < S_.numel
  bcast_S32x25_S32x25x1024_0_1 : S32x25.BroadcastsInDim S32x25x1024 (![0, 1] : Fin 2 → Fin S32x25x1024.rank)
  bcast_S_S32x25x1024 : S_.BroadcastsInDim S32x25x1024 (![] : Fin 0 → Fin S32x25x1024.rank)
  slices_S32x25x2_S32x25x1_0_0_1 : S32x25x2.Slices ![0, 0, 1] S32x25x1
  shapeCasts_S32x25x1024_S800x1024 : S32x25x1024.ShapeCasts S800x1024
  dot_S16x2048_S2048x512_S16x512_1_0_0_1_n_n_wf : DotDims.WF S16x2048 S2048x512 S16x512 [1] [0] [0] [1] [] []
  dot_S16x512_S512x2304_S16x2304_1_0_0_1_n_n_wf : DotDims.WF S16x512 S512x2304 S16x2304 [1] [0] [0] [1] [] []
  dot_S16x2304_S512x2304_S16x512_1_1_0_0_n_n_wf : DotDims.WF S16x2304 S512x2304 S16x512 [1] [1] [0] [0] [] []
  dot_S256x512_S512x1024_S256x1024_1_0_0_1_n_n_wf : DotDims.WF S256x512 S512x1024 S256x1024 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  gather_S32x16x1024_S32x25x1_S32x25x1024_2_1_0_0_1_2_111024_wf : GatherDims.WF S32x16x1024 S32x25x1 S32x25x1024 [2] [1] [0] [1] [0] 2 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x2048.size a ≤ S32x16x2048.size a
  hwx0_0 : ∀ i : grid0.Coords, EltTy.bits .f32 = 32 ∨ (Rect.block (s := S32x16x2048) S1x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2304.size a ≤ S32x512x2304.size a
  hwx0_1 : ∀ i : grid0.Coords, EltTy.bits .f32 = 32 ∨ (Rect.block (s := S32x512x2304) S1x512x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2304.size a ≤ S32x512x2304.size a
  hwx0_2 : ∀ i : grid0.Coords, EltTy.bits .f32 = 32 ∨ (Rect.block (s := S32x512x2304) S1x512x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512.size a ≤ S32x16x512.size a
  hwx0_5 : ∀ i : grid0.Coords, EltTy.bits .f32 = 32 ∨ (Rect.block (s := S32x16x512) S1x16x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S512x2048.size a
  hwx1_0 : ∀ i : grid1.Coords, EltTy.bits .f32 = 32 ∨ (Rect.block (s := S512x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S512x512.size a
  hwx1_1 : ∀ i : grid1.Coords, EltTy.bits .f32 = 32 ∨ (Rect.block (s := S512x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x1024.size a
  hwx1_2 : ∀ i : grid1.Coords, EltTy.bits .bf16 = 32 ∨ (Rect.block (s := S512x1024) S512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S512x1024.size a
  hwx1_7 : ∀ i : grid1.Coords, EltTy.bits .f32 = 32 ∨ (Rect.block (s := S512x1024) S256x1024.size (cc1_transform_7 i) (hinb1_7 i)).WholeWords (EltTy.packing .f32)

variable [Facts₀]

def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf
def dot_S16x512_S512x2304_S16x2304_1_0_0_1_n_n : DotDims S16x512 S512x2304 S16x2304 where
  lhsContracting := [1]
  rhsContracting := [0]
  lhsNonContracting := [0]
  rhsNonContracting := [1]
  lhsBatch := []
  rhsBatch := []
  wf := dot_S16x512_S512x2304_S16x2304_1_0_0_1_n_n_wf
def dot_S16x2304_S512x2304_S16x512_1_1_0_0_n_n : DotDims S16x2304 S512x2304 S16x512 where
  lhsContracting := [1]
  rhsContracting := [1]
  lhsNonContracting := [0]
  rhsNonContracting := [0]
  lhsBatch := []
  rhsBatch := []
  wf := dot_S16x2304_S512x2304_S16x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def gather_S32x16x1024_S32x25x1_S32x25x1024_2_1_0_0_1_2_111024 : GatherDims S32x16x1024 S32x25x1 S32x25x1024 where
  offsetDims := [2]
  collapsedSliceDims := [1]
  operandBatchingDims := [0]
  startIndicesBatchingDims := [0]
  startIndexMap := [1]
  indexVectorDim := 2
  sliceSizes := ![1, 1, 1024]
  wf := gather_S32x16x1024_S32x25x1_S32x25x1024_2_1_0_0_1_2_111024_wf

abbrev win0_0 : Pipeline.Window sig grid0 :=
  Pipeline.Window.ofSpec (Memref.whole main_v9) S1x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x512x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S512x2048 : Shape := ⟨2, ![512, 2048]⟩
abbrev S32x512x48x48 : Shape := ⟨4, ![32, 512, 48, 48]⟩
abbrev S512 : Shape := ⟨1, ![512]⟩
abbrev S32x25x2 : Shape := ⟨3, ![32, 25, 2]⟩
abbrev S32 : Shape := ⟨1, ![32]⟩
abbrev S2048x512 : Shape := ⟨2, ![2048, 512]⟩
abbrev S512x1024 : Shape := ⟨2, ![512, 1024]⟩
abbrev S1024 : Shape := ⟨1, ![1024]⟩
abbrev S3072x1024 : Shape := ⟨2, ![3072, 1024]⟩
abbrev S512x512 : Shape := ⟨2, ![512, 512]⟩
abbrev S1x512 : Shape := ⟨2, ![1, 512]⟩
abbrev S_ : Shape := ⟨0, ![]⟩
abbrev S32x16x512 : Shape := ⟨3, ![32, 16, 512]⟩
abbrev S32x512x2304 : Shape := ⟨3, ![32, 512, 2304]⟩
abbrev S32x16x2304 : Shape := ⟨3, ![32, 16, 2304]⟩
abbrev S32x16 : Shape := ⟨2, ![32, 16]⟩
abbrev S32x16x1 : Shape := ⟨3, ![32, 16, 1]⟩
abbrev S1x1024 : Shape := ⟨2, ![1, 1024]⟩
abbrev S512x3072 : Shape := ⟨2, ![512, 3072]⟩
abbrev S32x16x1024 : Shape := ⟨3, ![32, 16, 1024]⟩
abbrev S32x25x1 : Shape := ⟨3, ![32, 25, 1]⟩
abbrev S32x25 : Shape := ⟨2, ![32, 25]⟩
abbrev S1 : Shape := ⟨1, ![1]⟩
abbrev S1x1x1 : Shape := ⟨3, ![1, 1, 1]⟩
abbrev S32x25x1024 : Shape := ⟨3, ![32, 25, 1024]⟩
abbrev S800x1024 : Shape := ⟨2, ![800, 1024]⟩

abbrev nBuf : Space → Nat
  | .hbm => 111
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S32x512x48x48, .f32⟩
  | .hbm, ⟨2, _⟩ => ⟨S32x512x48x48, .f32⟩
  | .hbm, ⟨3, _⟩ => ⟨S512, .i32⟩
  | .hbm, ⟨4, _⟩ => ⟨S32x25x2, .i32⟩
  | .hbm, ⟨5, _⟩ => ⟨S32, .i32⟩
  | .hbm, ⟨6, _⟩ => ⟨S32, .i32⟩
  | .hbm, ⟨7, _⟩ => ⟨S2048x512, .f32⟩
  | .hbm, ⟨8, _⟩ => ⟨S512, .f32⟩
  | .hbm, ⟨9, _⟩ => ⟨S512x1024, .f32⟩
  | .hbm, ⟨10, _⟩ => ⟨S1024, .f32⟩
  | .hbm, ⟨11, _⟩ => ⟨S3072x1024, .f32⟩
  | .hbm, ⟨12, _⟩ => ⟨S1024, .f32⟩
  | .hbm, ⟨13, _⟩ => ⟨S512x512, .f32⟩
  | .hbm, ⟨14, _⟩ => ⟨S1x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S32x16x512, .f32⟩
  | .hbm, ⟨21, _⟩ => ⟨S32x512x2304, .f32⟩
  | .hbm, ⟨22, _⟩ => ⟨S32x512x2304, .f32⟩
  | .hbm, ⟨23, _⟩ => ⟨S32x16x2304, .f32⟩
  | .hbm, ⟨24, _⟩ => ⟨S_, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16x1, .f32⟩
  | .hbm, ⟨30, _⟩ => ⟨S32x16x2304, .f32⟩
  | .hbm, ⟨31, _⟩ => ⟨S32x16x2304, .f32⟩
  | .hbm, ⟨32, _⟩ => ⟨S32x16x2304, .f32⟩
  | .hbm, ⟨33, _⟩ => ⟨S_, .f32⟩
  | .hbm, ⟨34, _⟩ => ⟨S32x16, .f32⟩
  | .hbm, ⟨35, _⟩ => ⟨S32x16x1, .f32⟩
  | .hbm, ⟨36, _⟩ => ⟨S32x16x2304, .f32⟩
  | .hbm, ⟨37, _⟩ => ⟨S32x16x2304, .f32⟩
  | .hbm, ⟨38, _⟩ => ⟨S32x16x512, .f32⟩
  | .hbm, ⟨39, _⟩ => ⟨S512x512, .f32⟩
  | .hbm, ⟨40, _⟩ => ⟨S512x1024, .f32⟩
  | .hbm, ⟨41, _⟩ => ⟨S1x1024, .f32⟩
  | .hbm, ⟨42, _⟩ => ⟨S512x1024, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x3072, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | .hbm, ⟨55, _⟩ => ⟨S32x16x1024, .f32⟩
  | .hbm, ⟨56, _⟩ => ⟨S32x25x1, .i32⟩
  | .hbm, ⟨57, _⟩ => ⟨S32x25, .i32⟩
  | .hbm, ⟨58, _⟩ => ⟨S32x25x1, .i32⟩
  | .hbm, ⟨59, _⟩ => ⟨S_, .i32⟩
  | .hbm, ⟨60, _⟩ => ⟨S32x25x1, .i32⟩
  | .hbm, ⟨61, _⟩ => ⟨S32x25x1, .i1⟩
  | .hbm, ⟨62, _⟩ => ⟨S_, .i32⟩
  | .hbm, ⟨63, _⟩ => ⟨S32x25x1, .i32⟩
  | .hbm, ⟨64, _⟩ => ⟨S32x25x1, .i32⟩
  | .hbm, ⟨65, _⟩ => ⟨S32x25x1, .i32⟩
  | .hbm, ⟨66, _⟩ => ⟨S1, .i32⟩
  | .hbm, ⟨67, _⟩ => ⟨S_, .i32⟩
  | .hbm, ⟨68, _⟩ => ⟨S32x25x1, .i32⟩
  | .hbm, ⟨69, _⟩ => ⟨S32x25x1, .i1⟩
  | .hbm, ⟨70, _⟩ => ⟨S1x1x1, .i32⟩
  | .hbm, ⟨71, _⟩ => ⟨S32x25x1, .i32⟩
  | .hbm, ⟨72, _⟩ => ⟨S32x25x1, .i1⟩
  | .hbm, ⟨73, _⟩ => ⟨S32x25x1, .i1⟩
  | .hbm, ⟨74, _⟩ => ⟨S_, .i1⟩
  | .hbm, ⟨75, _⟩ => ⟨S32x25, .i1⟩
  | .hbm, ⟨76, _⟩ => ⟨S32x25x1024, .f32⟩
  | .hbm, ⟨77, _⟩ => ⟨S32x25x1024, .i1⟩
  | .hbm, ⟨78, _⟩ => ⟨S_, .f32⟩
  | .hbm, ⟨79, _⟩ => ⟨S32x25x1024, .f32⟩
  | .hbm, ⟨80, _⟩ => ⟨S32x25x1024, .f32⟩
  | .hbm, ⟨81, _⟩ => ⟨S32x25x1, .i32⟩
  | .hbm, ⟨82, _⟩ => ⟨S32x25, .i32⟩
  | .hbm, ⟨83, _⟩ => ⟨S32x25x1, .i32⟩
  | .hbm, ⟨84, _⟩ => ⟨S_, .i32⟩
  | .hbm, ⟨85, _⟩ => ⟨S32x25x1, .i32⟩
  | .hbm, ⟨86, _⟩ => ⟨S32x25x1, .i1⟩
  | .hbm, ⟨87, _⟩ => ⟨S_, .i32⟩
  | .hbm, ⟨88, _⟩ => ⟨S32x25x1, .i32⟩
  | .hbm, ⟨89, _⟩ => ⟨S32x25x1, .i32⟩
  | .hbm, ⟨90, _⟩ => ⟨S32x25x1, .i32⟩
  | .hbm, ⟨91, _⟩ => ⟨S1, .i32⟩
  | .hbm, ⟨92, _⟩ => ⟨S_, .i32⟩
  | .hbm, ⟨93, _⟩ => ⟨S32x25x1, .i32⟩
  | .hbm, ⟨94, _⟩ => ⟨S32x25x1, .i1⟩
  | .hbm, ⟨95, _⟩ => ⟨S1x1x1, .i32⟩
  | .hbm, ⟨96, _⟩ => ⟨S32x25x1, .i32⟩
  | .hbm, ⟨97, _⟩ => ⟨S32x25x1, .i1⟩
  | .hbm, ⟨98, _⟩ => ⟨S32x25x1, .i1⟩
  | .hbm, ⟨99, _⟩ => ⟨S_, .i1⟩
  | .hbm, ⟨100, _⟩ => ⟨S32x25, .i1⟩
  | .hbm, ⟨101, _⟩ => ⟨S32x25x1024, .f32⟩
  | .hbm, ⟨102, _⟩ => ⟨S32x25x1024, .i1⟩
  | .hbm, ⟨103, _⟩ => ⟨S_, .f32⟩
  | .hbm, ⟨104, _⟩ => ⟨S32x25x1024, .f32⟩
  | .hbm, ⟨105, _⟩ => ⟨S32x25x1024, .f32⟩
  | .hbm, ⟨106, _⟩ => ⟨S32x25x1024, .f32⟩
  | .hbm, ⟨107, _⟩ => ⟨S_, .f32⟩
  | .hbm, ⟨108, _⟩ => ⟨S32x25x1024, .f32⟩
  | .hbm, ⟨109, _⟩ => ⟨S32x25x1024, .f32⟩
  | .hbm, ⟨110, _⟩ => ⟨S800x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_cst : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_c_2 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_c_3 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_c_2 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_c_3 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_cst : Ref sig .tc := ⟨.hbm, 103, rfl⟩
abbrev main_call4_v14 : Ref sig .tc := ⟨.hbm, 104, rfl⟩
abbrev main_v41 : Ref sig .tc := ⟨.hbm, 105, rfl⟩
abbrev main_v42 : Ref sig .tc := ⟨.hbm, 106, rfl⟩
abbrev main_cst_2 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  shapeCasts_S512x512_S32x16x512 : S512x512.ShapeCasts S32x16x512
  shapeCasts_S32x512x48x48_S32x512x2304 : S32x512x48x48.ShapeCasts S32x512x2304
  reducesTo_S32x16x2304_S32x16_d2 : S32x16x2304.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x2304_0_1_2 : S32x16x1.BroadcastsInDim S32x16x2304 (![0, 1, 2] : Fin 3 → Fin S32x16x2304.rank)
  shapeCasts_S32x16x512_S512x512 : S32x16x512.ShapeCasts S512x512
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  concatenates_S512x2048_S512x1024_S512x3072_d1 : Shape.Concatenates [S512x2048, S512x1024] S512x3072 1
  shapeCasts_S512x1024_S32x16x1024 : S512x1024.ShapeCasts S32x16x1024
  slices_S32x25x2_S32x25x1_0_0_0 : S32x25x2.Slices ![0, 0, 0] S32x25x1
  shapeCasts_S32x25x1_S32x25 : S32x25x1.ShapeCasts S32x25
  bcast_S32x25_S32x25x1_0_1 : S32x25.BroadcastsInDim S32x25x1 (![0, 1] : Fin 2 → Fin S32x25x1.rank)
  bcast_S_S32x25x1 : S_.BroadcastsInDim S32x25x1 (![] : Fin 0 → Fin S32x25x1.rank)
  bcast_S1_S1x1x1_2 : S1.BroadcastsInDim S1x1x1 (![2] : Fin 1 → Fin S1x1x1.rank)
  bcast_S1x1x1_S32x25x1_0_1_2 : S1x1x1.BroadcastsInDim S32x25x1 (![0, 1, 2] : Fin 3 → Fin S32x25x1.rank)
  reducesTo_S32x25x1_S32x25_d2 : S32x25x1.ReducesTo [2] S32x25
  bcast_S32x25_S32x25x1024_0_1 : S32x25.BroadcastsInDim S32x25x1024 (![0, 1] : Fin 2 → Fin S32x25x1024.rank)
  bcast_S_S32x25x1024 : S_.BroadcastsInDim S32x25x1024 (![] : Fin 0 → Fin S32x25x1024.rank)
  slices_S32x25x2_S32x25x1_0_0_1 : S32x25x2.Slices ![0, 0, 1] S32x25x1
  shapeCasts_S32x25x1024_S800x1024 : S32x25x1024.ShapeCasts S800x1024
  dot_S512x2048_S2048x512_S512x512_1_0_0_1_n_n_wf : DotDims.WF S512x2048 S2048x512 S512x512 [1] [0] [0] [1] [] []
  dot_S32x16x512_S32x512x2304_S32x16x2304_2_1_1_2_0_0_wf : DotDims.WF S32x16x512 S32x512x2304 S32x16x2304 [2] [1] [1] [2] [0] [0]
  dot_S32x16x2304_S32x512x2304_S32x16x512_2_2_1_1_0_0_wf : DotDims.WF S32x16x2304 S32x512x2304 S32x16x512 [2] [2] [1] [1] [0] [0]
  dot_S512x512_S512x1024_S512x1024_1_0_0_1_n_n_wf : DotDims.WF S512x512 S512x1024 S512x1024 [1] [0] [0] [1] [] []
  dot_S512x3072_S3072x1024_S512x1024_1_0_0_1_n_n_wf : DotDims.WF S512x3072 S3072x1024 S512x1024 [1] [0] [0] [1] [] []
  gather_S32x16x1024_S32x25x1_S32x25x1024_2_1_0_0_1_2_111024_wf : GatherDims.WF S32x16x1024 S32x25x1 S32x25x1024 [2] [1] [0] [1] [0] 2 ![1, 1, 1024]

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S32x16x512_S32x512x2304_S32x16x2304_2_1_1_2_0_0 : DotDims S32x16x512 S32x512x2304 S32x16x2304 where
  lhsContracting := [2]
  rhsContracting := [1]
  lhsNonContracting := [1]
  rhsNonContracting := [2]
  lhsBatch := [0]
  rhsBatch := [0]
  wf := dot_S32x16x512_S32x512x2304_S32x16x2304_2_1_1_2_0_0_wf
def dot_S32x16x2304_S32x512x2304_S32x16x512_2_2_1_1_0_0 : DotDims S32x16x2304 S32x512x2304 S32x16x512 where
  lhsContracting := [2]
  rhsContracting := [2]
  lhsNonContracting := [1]
  rhsNonContracting := [1]
  lhsBatch := [0]
  rhsBatch := [0]
  wf := dot_S32x16x2304_S32x512x2304_S32x16x512_2_2_1_1_0_0_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def gather_S32x16x1024_S32x25x1_S32x25x1024_2_1_0_0_1_2_111024 : GatherDims S32x16x1024 S32x25x1 S32x25x1024 where
  offsetDims := [2]
  collapsedSliceDims := [1]
  operandBatchingDims := [0]
  startIndicesBatchingDims := [0]
  startIndexMap := [1]
  indexVectorDim := 2
  sliceSizes := ![1, 1, 1024]
  wf := gather_S32x16x1024_S32x25x1_S32x25x1024_2_1_0_0_1_2_111024_wf

class Facts : Prop extends Facts₀ where

variable [Facts]
-- ==== Proof.Spec.lean ====
/-
  The mathematics of the kernel, on the extended reals, one object (one row) at a time.

  An object `i = 16 b + k` of image `b` has a feature row `x_i` (2048 numbers). Its query is the positive part of an
  affine layer, `q_i = max (x_i · W_obj + b_obj) 0` (512 numbers). The attention logits over the 2304 positions of the
  image's key map are `d_h = ∑_c q_i c · key_b c h`; they are normalised by a softmax taken with the row maximum
  subtracted, `a_h = exp (d_h - max d) / ∑_h' exp (d_h' - max d)`; the object's context is the value map averaged with
  those weights, `ctx_i c = ∑_h a_h · val_b c h`. A second affine layer with positive part gives
  `t_i = max (ctx_i · W_ctx + b_ctx) 0` (1024 numbers), and the object's output feature is the positive part of an
  affine layer of the concatenated row `[x_i, t_i]` (3072 numbers) — written here with the sum over the 3072 columns
  already split into the first 2048 and the last 1024, which is how one side computes it; the other side's single sum
  is split by `sum3072`.
-/
import Idealize.ShloMosaic.PureOps.Ideal
import Idealize.ShloMosaic.PureOps.Ideal.Laws
import Idealize.ShloMosaic.Lib.ValueIdx
import Mathlib.Data.Finset.Fold
import Mathlib.Algebra.BigOperators.Fin

noncomputable section

namespace Cert.Ican

open Idealize.ShloMosaic Idealize.ShloMosaic.ValueIdx
open scoped BigOperators

/-- Arrays of extended reals of rank 1, 2, 3 over literal extents. -/
abbrev T1 (a : ℕ) := (⟨1, ![a]⟩ : Shape).Idx → EReal
abbrev T2 (a b : ℕ) := (⟨2, ![a, b]⟩ : Shape).Idx → EReal
abbrev T3 (a b c : ℕ) := (⟨3, ![a, b, c]⟩ : Shape).Idx → EReal

/-- The value the f32 word of zero denotes (kept as the word: both sides carry the same word). -/
abbrev zeroW : EReal := Ideal.ofBits .f32 0x00000000#32
/-- The value the f32 word of minus infinity denotes. -/
abbrev negInfW : EReal := Ideal.ofBits .f32 0xFF800000#32

/-- One output of an affine layer followed by the positive part: `max (x · w + b) 0`. -/
def relu1 {K : ℕ} (x w : Fin K → EReal) (b : EReal) : EReal := max ((∑ k, x k * w k) + b) zeroW

/-- The maximum of a row of 2304 logits, folded from minus infinity. -/
def rowMax (d : Fin 2304 → EReal) : EReal := (Finset.univ : Finset (Fin 2304)).fold max negInfW d

/-- The softmax weight of position `h`, with the row maximum subtracted before the exponential. -/
def soft (d : Fin 2304 → EReal) (h : Fin 2304) : EReal :=
  Ideal.div (Ideal.exp (d h - rowMax d)) (∑ h' : Fin 2304, Ideal.exp (d h' - rowMax d))

/-- The query of one object from its feature row. -/
def qRow (xr : Fin 2048 → EReal) (wobj : Fin 2048 → Fin 512 → EReal) (bobj : Fin 512 → EReal) (c : Fin 512) : EReal :=
  relu1 xr (fun f => wobj f c) (bobj c)

/-- The attention logits of one object against its image's key map. -/
def logits (q : Fin 512 → EReal) (kf : Fin 512 → Fin 2304 → EReal) (h : Fin 2304) : EReal := ∑ c : Fin 512, q c * kf c h

/-- The context vector of one object: the value map averaged with the softmax of the logits. -/
def ctxRow (xr : Fin 2048 → EReal) (wobj : Fin 2048 → Fin 512 → EReal) (bobj : Fin 512 → EReal)
    (kf vf : Fin 512 → Fin 2304 → EReal) (c : Fin 512) : EReal :=
  ∑ h : Fin 2304, soft (logits (qRow xr wobj bobj) kf) h * vf c h

/-- The transformed context of one object. -/
def tRow (cr : Fin 512 → EReal) (wctx : Fin 512 → Fin 1024 → EReal) (bctx : Fin 1024 → EReal) (d : Fin 1024) : EReal :=
  relu1 cr (fun c => wctx c d) (bctx d)

/-- The output feature of one object from its feature row and its context vector, the last layer's weight matrix given
    as its first 2048 rows `wa` and its last 1024 rows `wb`. -/
def featRow (xr : Fin 2048 → EReal) (cr : Fin 512 → EReal) (wctx : Fin 512 → Fin 1024 → EReal) (bctx : Fin 1024 → EReal)
    (wa : Fin 2048 → Fin 1024 → EReal) (wb : Fin 1024 → Fin 1024 → EReal) (bcat : Fin 1024 → EReal) (j : Fin 1024) : EReal :=
  max (((∑ f : Fin 2048, xr f * wa f j) + (∑ d : Fin 1024, tRow cr wctx bctx d * wb d j)) + bcat j) zeroW

/-- Row `f` of the 3072-row weight matrix, for `f` among the first 2048 rows. -/
def lo (f : Fin 2048) : Fin 3072 := ⟨f.val, by have := f.isLt; omega⟩
/-- Row `2048 + d` of the 3072-row weight matrix. -/
def hi (d : Fin 1024) : Fin 3072 := ⟨2048 + d.val, by have := d.isLt; omega⟩

/-- Object `k` of image `b` is row `16 b + k`. -/
def row16 (b : Fin 32) (k : Fin 16) : Fin 512 := ⟨b.val * 16 + k.val, by have := b.isLt; have := k.isLt; omega⟩

/-- Every row is some object of some image. -/
theorem row16_divmod (i : Fin 512) :
    row16 ⟨i.val / 16, by have := i.isLt; omega⟩ ⟨i.val % 16, Nat.mod_lt _ (by decide)⟩ = i :=
  Fin.ext (by show i.val / 16 * 16 + i.val % 16 = i.val; omega)

/-- The whole context array, `[32, 16, 512]`, from the argument arrays (the key and value maps already flattened to
    `[32, 512, 2304]`). -/
def ctxArr (x : T2 512 2048) (kf vf : T3 32 512 2304) (wobj : T2 2048 512) (bobj : T1 512) (b : Fin 32) (k : Fin 16) (c : Fin 512) :
    EReal :=
  ctxRow (fun f => x (ix2 (row16 b k) f)) (fun f c' => wobj (ix2 f c')) (fun c' => bobj (ix1 c'))
    (fun c' h => kf (ix3 b c' h)) (fun c' h => vf (ix3 b c' h)) c

/-- The whole feature array, `[512, 1024]`, from the feature rows, the context rows (`[512, 512]`) and the weights. -/
def featArr (x : T2 512 2048) (ctx : T2 512 512) (wctx : T2 512 1024) (bctx : T1 1024) (wcat : T2 3072 1024) (bcat : T1 1024)
    (i : Fin 512) (j : Fin 1024) : EReal :=
  featRow (fun f => x (ix2 i f)) (fun c => ctx (ix2 i c)) (fun c d => wctx (ix2 c d)) (fun d => bctx (ix1 d))
    (fun f j' => wcat (ix2 (lo f) j')) (fun d j' => wcat (ix2 (hi d) j')) (fun d => bcat (ix1 d)) j

/-- The feature array depends on the context array only through its values. -/
theorem featArr_congr (x : T2 512 2048) (ctx ctx' : T2 512 512) (wctx : T2 512 1024) (bctx : T1 1024) (wcat : T2 3072 1024)
    (bcat : T1 1024) (i : Fin 512) (j : Fin 1024) (h : ∀ c : Fin 512, ctx (ix2 i c) = ctx' (ix2 i c)) :
    featArr x ctx wctx bctx wcat bcat i j = featArr x ctx' wctx bctx wcat bcat i j := by
  unfold featArr
  exact congrArg (fun cr => featRow _ cr _ _ _ _ _ j) (funext h)

/-- A sum over the 3072 rows is the sum over the first 2048 plus the sum over the last 1024. -/
theorem sum3072 (g : Fin 3072 → EReal) : ∑ k : Fin 3072, g k = (∑ f : Fin 2048, g (lo f)) + ∑ d : Fin 1024, g (hi d) := by
  have h := Fin.sum_univ_add (M := EReal) (a := 2048) (b := 1024) g
  refine h.trans ?_
  congr 1

/-- A maximum folded from a start value is not below that start value, so taking the maximum with it again changes
    nothing. -/
theorem max_fold_self {ι : Type} (s : Finset ι) (b : EReal) (g : ι → EReal) : max b (s.fold max b g) = s.fold max b g :=
  max_eq_right ((Finset.le_fold_max b).mpr (Or.inl le_rfl))

end Cert.Ican

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Body0.lean ====
/-
  The body of the fused attention call, at one element of the block it stores.

  The body loads the 16 feature rows of one image (`[1, 16, 2048]`), the query weights and bias, and the image's key and value
  maps (`[1, 512, 2304]` each); it computes the 16 queries, their logits against the key map, the softmax along the 2304
  positions and the value map averaged with it, and stores the 16 context vectors. Read at `(0, k, c)` the stored value is
  the context `ctxRow` of the block's row `k`.
-/
import proofs.«428669_j84610855731244_3_alg».proof.Proof.Gen.KernelIdeal.Skeleton
import proofs.«428669_j84610855731244_3_alg».proof.Proof.Spec
import proofs.«428669_j84610855731244_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.Ican.Body0

open Cert.KernelIdeal Cert.KernelIdeal.Gen Cert.Ican
open Idealize.ShloMosaic Idealize.ShloMosaic.TcCoe Idealize.ShloMosaic.ValueIdx
open scoped BigOperators

/-! ## Column forms: a vector as a one-column matrix, and that column spread along the rows -/

section Column
variable {α : Type}

/-- An `[a]` array cast to the column `[a, 1]` reads, at `(k, u)`, the operand at `k`. -/
theorem colCast_apply {a : ℕ} (v : (⟨1, ![a]⟩ : Shape).Idx → α) (h : (⟨1, ![a]⟩ : Shape).ShapeCasts ⟨2, ![a, 1]⟩)
    (k : Fin a) (u : Fin 1) : shapeCast ⟨2, ![a, 1]⟩ v h (ix2 k u) = v (ix1 k) :=
  shapeCast_apply v h _ _ (by
    have hu : u.val = 0 := by omega
    rw [Shape.rowMajor_val_two, Shape.rowMajor_val_one]
    show k.val = k.val * 1 + u.val
    rw [hu, Nat.mul_one, Nat.add_zero])

/-- A column `[a, 1]` broadcast to `[a, b]` reads, at `(k, q)`, the column's entry `k`. -/
theorem colBcast_apply {a b : ℕ} (w : (⟨2, ![a, 1]⟩ : Shape).Idx → α) (h : (⟨2, ![a, 1]⟩ : Shape).Broadcasts ⟨2, ![a, b]⟩)
    (k : Fin a) (q : Fin b) : broadcastTo ⟨2, ![a, b]⟩ w h (ix2 k q) = w (ix2 k (0 : Fin 1)) := by
  refine broadcastTo_apply w h (ix2 k q) (ix2 k (0 : Fin 1)) fun ax => ?_
  match ax with
  | ⟨0, _⟩ =>
    show k.val = if a = 1 then 0 else k.val
    split
    · have := k.isLt; omega
    · rfl
  | ⟨1, _⟩ => rfl

/-- A vector made a column and spread along the rows: at `(k, q)` it is the vector's entry `k`. -/
theorem colSpread_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (k : Fin a) (q : Fin b) :
    broadcastTo ⟨2, ![a, b]⟩ (shapeCast ⟨2, ![a, 1]⟩ v hc) hb (ix2 k q) = v (ix1 k) :=
  (colBcast_apply _ hb k q).trans (colCast_apply v hc k 0)

end Column

/-! ## Reductions along the rows -/

section RowReduce
variable {a b : ℕ}

/-- Reducing `[a, b]` along its second axis, the index with coordinate `q` put back into `k` is `(k, q)`. -/
theorem lift_row (h : (⟨2, ![a, b]⟩ : Shape).Reduces [1] ⟨1, ![a]⟩) (k : Fin a) (q : Fin b) :
    h.lift (ix1 k) q = ix2 k q :=
  funext fun c => Fin.ext (by match c with | ⟨0, _⟩ => rfl | ⟨1, _⟩ => rfl)

/-- A row maximum: at `k`, the fold of `max` over row `k` from the accumulator's value. -/
theorem rowMaxRed_apply (x : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (k : Fin a) :
    multiReduction .maximumf [1] ⟨1, ![a]⟩ x acc h hφ hacc (ix1 k)
      = (Finset.univ : Finset (Fin b)).fold max (Ideal.ofBits .f32 acc) (fun q => x (ix2 k q)) := by
  refine (Ideal.multiReduction_maximumf_single x acc h hφ hacc (ix1 k)).trans ?_
  exact congrArg (fun g => (Finset.univ : Finset (Fin b)).fold max (Ideal.ofBits .f32 acc) g)
    (funext fun q => congrArg x (lift_row h k q))

/-- A row sum: at `k`, the sum of row `k`. -/
theorem rowSumRed_apply (x : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (k : Fin a) :
    multiReduction .add [1] ⟨1, ![a]⟩ x acc h hφ hacc (ix1 k) = ∑ q : Fin b, x (ix2 k q) := by
  refine (Ideal.multiReduction_add_single x acc h hφ hacc (ix1 k)).trans ?_
  show ∑ q : Fin b, x (h.lift (ix1 k) q) = _
  exact Finset.sum_congr rfl fun q _ => congrArg x (lift_row h k q)

end RowReduce

/-! ## A product against a transposed right operand, `[M, K] × [N, K]`, as a sum over `Fin K` -/

section TransposedRhs
variable {M K N : ℕ}

theorem tr_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem tr_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem tr_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction of such a product, at `(p, j)`: the sum over `k : Fin K` of `l (p, k) * r (j, k)`. -/
theorem tr_sum (l : (⟨2, ![M, K]⟩ : Shape).Idx → EReal) (r : (⟨2, ![N, K]⟩ : Shape).Idx → EReal) (p : Fin M) (j : Fin N) :
    ∑ k : (DotDims.transposedRhs M K N).contr.Idx,
        l ((DotDims.transposedRhs M K N).lhsIdx (ix2 p j) k) * r ((DotDims.transposedRhs M K N).rhsIdx (ix2 p j) k)
      = ∑ k : Fin K, l (ix2 p k) * r (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact tr_rhs_0 _ _
      | ⟨1, _⟩ => exact (tr_rhs_1 _ _).trans hk)
  rw [el, er]

/-- A kernel's product into the zero accumulator, for any dimension record that contracts the second axis of both operands. -/
theorem matmul_tr_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (j : Fin N) :
    matmul d prec l r (constant ⟨2, ![M, N]⟩ .f32 0x00000000#32) (ix2 p j) = ∑ k : Fin K, l (ix2 p k) * r (ix2 j k) := by
  subst hd
  simp only [matmul]
  rw [Ideal.matmul_constant_zero_apply]
  exact tr_sum l r p j

end TransposedRhs

/-! ## The body's stages, each over variables -/

/-- The logits of row `k` with the row's maximum subtracted. -/
theorem subMax_apply (x : FVec Ideal S16x2304 .f32) (k : Fin 16) (h : Fin 2304) :
    subf x (broadcastTo S16x2304 (shapeCast S16x1
        (multiReduction .maximumf [1] S16 x 0xFF800000#32 reduces_S16x2304_S16 (.inl rfl) rfl) shapeCasts_S16_S16x1)
        broadcasts_S16x1_S16x2304) (ix2 k h)
      = x (ix2 k h) - rowMax (fun h' => x (ix2 k h')) := by
  rw [subf_apply, colSpread_apply]
  exact congrArg (x (ix2 k h) - ·) (rowMaxRed_apply x _ reduces_S16x2304_S16 _ _ k)

/-- A row divided by its own sum. -/
theorem divSum_apply (e : FVec Ideal S16x2304 .f32) (k : Fin 16) (h : Fin 2304) :
    divf e (broadcastTo S16x2304 (shapeCast S16x1
        (multiReduction .add [1] S16 e 0x00000000#32 reduces_S16x2304_S16 (.inl rfl) rfl) shapeCasts_S16_S16x1)
        broadcasts_S16x1_S16x2304) (ix2 k h)
      = Ideal.div (e (ix2 k h)) (∑ h' : Fin 2304, e (ix2 k h')) := by
  rw [divf_apply, colSpread_apply]
  exact congrArg (Ideal.div (e (ix2 k h))) (rowSumRed_apply e _ reduces_S16x2304_S16 _ _ k)

/-- The softmax of row `k` of a `[16, 2304]` array of logits, as the body spells it. -/
theorem soft_apply (x : FVec Ideal S16x2304 .f32) (k : Fin 16) (h : Fin 2304) :
    divf (exp (subf x (broadcastTo S16x2304 (shapeCast S16x1
            (multiReduction .maximumf [1] S16 x 0xFF800000#32 reduces_S16x2304_S16 (.inl rfl) rfl) shapeCasts_S16_S16x1)
            broadcasts_S16x1_S16x2304)))
        (broadcastTo S16x2304 (shapeCast S16x1
          (multiReduction .add [1] S16
            (exp (subf x (broadcastTo S16x2304 (shapeCast S16x1
              (multiReduction .maximumf [1] S16 x 0xFF800000#32 reduces_S16x2304_S16 (.inl rfl) rfl) shapeCasts_S16_S16x1)
              broadcasts_S16x1_S16x2304)))
            0x00000000#32 reduces_S16x2304_S16 (.inl rfl) rfl) shapeCasts_S16_S16x1)
          broadcasts_S16x1_S16x2304) (ix2 k h)
      = soft (fun h' => x (ix2 k h')) h := by
  refine (divSum_apply _ k h).trans ?_
  unfold soft
  have e : ∀ h' : Fin 2304,
      exp (subf x (broadcastTo S16x2304 (shapeCast S16x1
            (multiReduction .maximumf [1] S16 x 0xFF800000#32 reduces_S16x2304_S16 (.inl rfl) rfl) shapeCasts_S16_S16x1)
            broadcasts_S16x1_S16x2304)) (ix2 k h')
        = Ideal.exp (x (ix2 k h') - rowMax (fun h'' => x (ix2 k h''))) :=
    fun h' => congrArg Ideal.exp (subMax_apply x k h')
  rw [e h]
  exact congrArg (Ideal.div _) (Finset.sum_congr rfl fun h' _ => e h')

/-- The query of row `k`, as the body spells it. -/
theorem q_apply (v0 : FVec Ideal S1x16x2048 .f32) (v3 : FVec Ideal S2048x512 .bf16) (v6 : FVec Ideal S1x512 .f32)
    (k : Fin 16) (c : Fin 512) :
    maximumf
        (addf
          (matmul dot_S16x2048_S2048x512_S16x512_1_0_0_1_n_n none
            (truncf .bf16 (shapeCast S16x2048 v0 shapeCasts_S1x16x2048_S16x2048) bitsLt_bf16_f32)
            (shapeCast S2048x512 v3 shapeCasts_S2048x512_S2048x512) (constant S16x512 .f32 0x00000000#32))
          (broadcastTo S16x512 (shapeCast S1x512 v6 shapeCasts_S1x512_S1x512) broadcasts_S1x512_S16x512))
        (broadcast S16x512 (Scalar.ofBits .f32 0x00000000#32)) (ix2 k c)
      = qRow (fun f => v0 (ix3 0 k f)) (fun f c' => v3 (ix2 f c')) (fun c' => v6 (ix2 0 c')) c := by
  rw [maximumf_apply, addf_apply, shapeCast_self, shapeCast_self,
    LibRowOps.matmul_plain_apply dot_S16x2048_S2048x512_S16x512_1_0_0_1_n_n rfl,
    broadcastTo_1b_ab_apply]
  unfold qRow relu1
  refine congrArg (fun s => max (s + v6 (ix2 0 c)) zeroW) (Finset.sum_congr rfl fun f _ => ?_)
  exact congrArg (· * v3 (ix2 f c)) (shapeCast_1ab_ab_apply v0 shapeCasts_S1x16x2048_S16x2048 k f)

/-- The logits of row `k` from the queries `Q` and the key map, as the body spells them. -/
theorem logits_apply (Q : FVec Ideal S16x512 .f32) (v13 : FVec Ideal S1x512x2304 .f32) (k : Fin 16) (h : Fin 2304) :
    matmul dot_S16x512_S512x2304_S16x2304_1_0_0_1_n_n none (truncf .bf16 Q bitsLt_bf16_f32)
        (truncf .bf16 (shapeCast S512x2304 v13 shapeCasts_S1x512x2304_S512x2304) bitsLt_bf16_f32)
        (constant S16x2304 .f32 0x00000000#32) (ix2 k h)
      = ∑ c : Fin 512, Q (ix2 k c) * v13 (ix3 0 c h) := by
  rw [LibRowOps.matmul_plain_apply dot_S16x512_S512x2304_S16x2304_1_0_0_1_n_n rfl]
  exact Finset.sum_congr rfl fun c _ =>
    congrArg (Q (ix2 k c) * ·) (shapeCast_1ab_ab_apply v13 shapeCasts_S1x512x2304_S512x2304 c h)

/-- The stored context of row `k` from the attention weights `A` and the value map, as the body spells it. -/
theorem ctx_apply (A : FVec Ideal S16x2304 .f32) (v16 : FVec Ideal S1x512x2304 .f32) (k : Fin 16) (c : Fin 512) :
    shapeCast S1x16x512
        (matmul dot_S16x2304_S512x2304_S16x512_1_1_0_0_n_n none (truncf .bf16 A bitsLt_bf16_f32)
          (truncf .bf16 (shapeCast S512x2304 v16 shapeCasts_S1x512x2304_S512x2304) bitsLt_bf16_f32)
          (constant S16x512 .f32 0x00000000#32))
        shapeCasts_S16x512_S1x16x512 (ix3 0 k c)
      = ∑ h : Fin 2304, A (ix2 k h) * v16 (ix3 0 c h) := by
  rw [shapeCast_ab_1ab_apply, matmul_tr_apply dot_S16x2304_S512x2304_S16x512_1_1_0_0_n_n rfl]
  exact Finset.sum_congr rfl fun h _ =>
    congrArg (A (ix2 k h) * ·) (shapeCast_1ab_ab_apply v16 shapeCasts_S1x512x2304_S512x2304 c h)

/-- The body's stored value at `(0, k, c)` of its `[1, 16, 512]` block is the context of the block's row `k`. -/
theorem pay0_apply (v0 : Vec Ideal S1x16x2048 .f32) (v3 : Vec Ideal S2048x512 .bf16) (v6 : Vec Ideal S1x512 .f32)
    (v13 v16 : Vec Ideal S1x512x2304 .f32) (k : Fin 16) (c : Fin 512) :
    k0_pay1 (F := Ideal) v0 v3 v6 v13 v16 (ix3 0 k c)
      = ctxRow (fun f => v0 (ix3 0 k f)) (fun f c' => v3 (ix2 f c')) (fun c' => v6 (ix2 0 c'))
          (fun c' h => v13 (ix3 0 c' h)) (fun c' h => v16 (ix3 0 c' h)) c := by
  unfold k0_pay1
  refine (ctx_apply _ v16 k c).trans ?_
  unfold ctxRow
  refine Finset.sum_congr rfl fun h _ => congrArg (· * v16 (ix3 0 c h)) ?_
  refine (soft_apply _ k h).trans ?_
  refine congrArg (fun d => soft d h) (funext fun h' => ?_)
  refine (logits_apply _ v13 k h').trans ?_
  unfold logits
  exact Finset.sum_congr rfl fun c' _ => congrArg (· * v13 (ix3 0 c' h')) (q_apply v0 v3 v6 k c')

end Cert.Ican.Body0

end
-- ==== Proof.Region0.lean ====
/-
  Region 0 (the fused attention call): what its output array holds after the run.

  The call's grid has one point per image `b`; at that point the body reads the image's 16 feature rows, its key and value
  maps, the query weights and bias, and stores the 16 context vectors. So the output array `[32, 16, 512]` holds at
  `(b, k, c)` the context `ctxRow` of object `k` of image `b`, read from the arrays as the region finds them.
-/
import proofs.«428669_j84610855731244_3_alg».proof.Proof.Gen.KernelIdeal.Frame
import proofs.«428669_j84610855731244_3_alg».proof.Proof.Spec
import proofs.«428669_j84610855731244_3_alg».proof.Proof.Body0
import proofs.«428669_j84610855731244_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Ican.Region0

open Cert.KernelIdeal Cert.KernelIdeal.Gen Cert.Ican Cert.Ican.Body0
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The grid point of region 0 as an image number. -/
def tb (t : Fin cfg0.N) : Fin 32 := ⟨t.val, lt_of_lt_of_eq t.isLt N_0⟩

/-- Zero offsets, however they are spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- What the output array ends holding, as one function of the arrays the region finds: at (b, k, c) the context of
    object k of image b. -/
def G (c : Dev nD) : S32x16x512.Idx → EReal := fun i =>
  ctxRow (fun f => V c main_v9 (ix3 (i 0) (i 1) f)) (fun f c' => V c main_v0 (ix2 f c')) (fun c' => V c main_v6 (ix2 0 c'))
    (fun c' h => V c main_v10 (ix3 (i 0) c' h)) (fun c' h => V c main_v11 (ix3 (i 0) c' h)) (i 2)

/-- The index maps, decided over the 32 points: the per-image windows and the output are at block (t, 0, 0), the
    resident weights and bias at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The feature block at point t, read at (0, k, f), is the feature array at (t, k, f). -/
theorem blk0_at (c : Dev nD) (t : Fin cfg0.N) (k : Fin 16) (f : Fin 2048) :
    (iblk0 (F := Ideal) V c 0 t : Vec Ideal S1x16x2048 .f32) (ix3 0 k f) = V c main_v9 (ix3 (tb t) k f) := by
  obtain ⟨e0, e1, e2, -⟩ := idx_facts t
  unfold iblk0
  rw [View.read_apply]
  refine congrArg (V c main_v9) ?_
  funext a; apply Fin.ext
  match a with
  | ⟨0, _⟩ => show win0_0.index t (0 : Fin 3) * 1 + 1 * 0 = t.val; omega
  | ⟨1, _⟩ => show win0_0.index t (1 : Fin 3) * 16 + 1 * k.val = k.val; omega
  | ⟨2, _⟩ => show win0_0.index t (2 : Fin 3) * 2048 + 1 * f.val = f.val; omega

/-- The key block at point t, read at (0, c', h), is the key array at (t, c', h). -/
theorem blk1_at (c : Dev nD) (t : Fin cfg0.N) (c' : Fin 512) (h : Fin 2304) :
    (iblk0 (F := Ideal) V c 1 t : Vec Ideal S1x512x2304 .f32) (ix3 0 c' h) = V c main_v10 (ix3 (tb t) c' h) := by
  obtain ⟨-, -, -, e0, e1, e2, -⟩ := idx_facts t
  unfold iblk0
  rw [View.read_apply]
  refine congrArg (V c main_v10) ?_
  funext a; apply Fin.ext
  match a with
  | ⟨0, _⟩ => show win0_1.index t (0 : Fin 3) * 1 + 1 * 0 = t.val; omega
  | ⟨1, _⟩ => show win0_1.index t (1 : Fin 3) * 512 + 1 * c'.val = c'.val; omega
  | ⟨2, _⟩ => show win0_1.index t (2 : Fin 3) * 2304 + 1 * h.val = h.val; omega

/-- The value block at point t, read at (0, c', h), is the value array at (t, c', h). -/
theorem blk2_at (c : Dev nD) (t : Fin cfg0.N) (c' : Fin 512) (h : Fin 2304) :
    (iblk0 (F := Ideal) V c 2 t : Vec Ideal S1x512x2304 .f32) (ix3 0 c' h) = V c main_v11 (ix3 (tb t) c' h) := by
  obtain ⟨-, -, -, -, -, -, e0, e1, e2, -⟩ := idx_facts t
  unfold iblk0
  rw [View.read_apply]
  refine congrArg (V c main_v11) ?_
  funext a; apply Fin.ext
  match a with
  | ⟨0, _⟩ => show win0_2.index t (0 : Fin 3) * 1 + 1 * 0 = t.val; omega
  | ⟨1, _⟩ => show win0_2.index t (1 : Fin 3) * 512 + 1 * c'.val = c'.val; omega
  | ⟨2, _⟩ => show win0_2.index t (2 : Fin 3) * 2304 + 1 * h.val = h.val; omega

/-- The weights' block at any point is the whole weight array. -/
theorem blk3_at (c : Dev nD) (t : Fin cfg0.N) (f : Fin 2048) (c' : Fin 512) :
    (iblk0 (F := Ideal) V c 3 t : Vec Ideal S2048x512 .bf16) (ix2 f c') = V c main_v0 (ix2 f c') := by
  obtain ⟨-, -, -, -, -, -, -, -, -, e0, e1, -⟩ := idx_facts t
  unfold iblk0
  rw [View.read_apply]
  refine congrArg (V c main_v0) ?_
  funext a; apply Fin.ext
  match a with
  | ⟨0, _⟩ => show win0_3.index t (0 : Fin 2) * 2048 + 1 * f.val = f.val; omega
  | ⟨1, _⟩ => show win0_3.index t (1 : Fin 2) * 512 + 1 * c'.val = c'.val; omega

/-- The bias's block at any point is the whole bias array. -/
theorem blk4_at (c : Dev nD) (t : Fin cfg0.N) (c' : Fin 512) :
    (iblk0 (F := Ideal) V c 4 t : Vec Ideal S1x512 .f32) (ix2 0 c') = V c main_v6 (ix2 0 c') := by
  obtain ⟨-, -, -, -, -, -, -, -, -, -, -, e0, e1, -⟩ := idx_facts t
  unfold iblk0
  rw [View.read_apply]
  refine congrArg (V c main_v6) ?_
  funext a; apply Fin.ext
  match a with
  | ⟨0, _⟩ => show win0_4.index t (0 : Fin 2) * 1 + 1 * 0 = 0; omega
  | ⟨1, _⟩ => show win0_4.index t (1 : Fin 2) * 512 + 1 * c'.val = c'.val; omega

/-- The context of a row depends on its five arguments only through their values. -/
theorem ctxRow_congr {xr xr' : Fin 2048 → EReal} {wobj wobj' : Fin 2048 → Fin 512 → EReal} {bobj bobj' : Fin 512 → EReal}
    {kf kf' vf vf' : Fin 512 → Fin 2304 → EReal} (h0 : ∀ f, xr f = xr' f) (h1 : ∀ f c', wobj f c' = wobj' f c')
    (h2 : ∀ c', bobj c' = bobj' c') (h3 : ∀ c' h, kf c' h = kf' c' h) (h4 : ∀ c' h, vf c' h = vf' c' h) (cc : Fin 512) :
    ctxRow xr wobj bobj kf vf cc = ctxRow xr' wobj' bobj' kf' vf' cc := by
  obtain rfl : xr = xr' := funext h0
  obtain rfl : wobj = wobj' := funext fun f => funext (h1 f)
  obtain rfl : bobj = bobj' := funext h2
  obtain rfl : kf = kf' := funext fun c' => funext (h3 c')
  obtain rfl : vf = vf' := funext fun c' => funext (h4 c')
  rfl

/-- Where the output's block at point t puts its index (0, k, c): at (t, k, c). -/
theorem emb5 (t : Fin cfg0.N) (k : Fin 16) (cc : Fin 512) :
    ((cfg0.win 5).blk t).view.emb (ix3 0 k cc) = ix3 (tb t) k cc := by
  obtain ⟨-, -, -, -, -, -, -, -, -, -, -, -, -, e0, e1, e2⟩ := idx_facts t
  funext a; apply Fin.ext
  match a with
  | ⟨0, _⟩ => show win0_5.index t (0 : Fin 3) * 1 + 1 * 0 = t.val; omega
  | ⟨1, _⟩ => show win0_5.index t (1 : Fin 3) * 16 + 1 * k.val = k.val; omega
  | ⟨2, _⟩ => show win0_5.index t (2 : Fin 3) * 512 + 1 * cc.val = cc.val; omega

/-- What point t writes back is block t of G. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz3]
  simp only [View.ld_unit_zero (S := S1x16x2048) hz3, View.ld_unit_zero (S := S2048x512) hz2,
    View.ld_unit_zero (S := S1x512) hz2, View.ld_unit_zero (S := S1x512x2304) hz3]
  funext y
  obtain ⟨a, k, cc, rfl⟩ : ∃ (a : Fin 1) (k : Fin 16) (cc : Fin 512), y = ix3 a k cc := ⟨_, _, _, eq_ix3 y⟩
  obtain rfl : a = 0 := Subsingleton.elim _ _
  rw [View.read_apply, emb5]
  refine (pay0_apply _ _ _ _ _ k cc).trans ?_
  exact ctxRow_congr (fun f => blk0_at V c t k f) (fun f c' => blk3_at V c t f c') (fun c' => blk4_at V c t c')
    (fun c' h => blk1_at V c t c' h) (fun c' h => blk2_at V c t c' h) cc

/-- An index of the array is in point t's block iff each coordinate is in the block's range on its axis. -/
theorem mem_blk (t : Fin cfg0.N) (i : S32x16x512.Idx) :
    i ∈ ((cfg0.win 5).blk t).view.set ↔ ∀ a : Fin 3, win0_5.index t a * S1x16x512.size a ≤ (i a).val
      ∧ (i a).val < win0_5.index t a * S1x16x512.size a + S1x16x512.size a := by
  show i ∈ ((View.whole main_v12).slice (win0_5.rect t)).set ↔ _
  rw [View.set_slice_whole, Rect.mem_set_unit]
  exact Iff.rfl

/-- Every index of the array is in the block of the point numbered by its image coordinate. -/
theorem cover (i : S32x16x512.Idx) :
    ∃ t : Fin cfg0.N, (cfg0.win 5).flush t = true ∧ i ∈ ((cfg0.win 5).blk t).view.set := by
  have hi0 : (i 0).val < 32 := (i 0).isLt
  have hi1 : (i 1).val < 16 := (i 1).isLt
  have hi2 : (i 2).val < 512 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 16 ≤ (i 1).val ∧ (i 1).val < win0_5.index t (1 : Fin 3) * 16 + 16; omega
  | ⟨2, _⟩ => show win0_5.index t (2 : Fin 3) * 512 ≤ (i 2).val ∧ (i 2).val < win0_5.index t (2 : Fin 3) * 512 + 512; omega

/-- The output array of region 0 after its run, at `(b, k, c)`. -/
theorem ctx_array (c : Dev nD) (b : Fin 32) (k : Fin 16) (cc : Fin 512) :
    (dat0 (F := Ideal) V c).arrAt 5 cfg0.N (ix3 b k cc)
      = ctxRow (fun f => V c main_v9 (ix3 b k f)) (fun f c' => V c main_v0 (ix2 f c')) (fun c' => V c main_v6 (ix2 0 c'))
          (fun c' h => V c main_v10 (ix3 b c' h)) (fun c' h => V c main_v11 (ix3 b c' h)) cc := by
  refine (congrFun ((dat0 (F := Ideal) V c).arrAt_eq_of_cover 5 (G V c) (fun t _ => flushed_eq V c t) cover) (ix3 b k cc)).trans ?_
  rfl

end Cert.Ican.Region0

end
-- ==== Proof.Body1.lean ====
/-
  The body of the fused context-and-concatenation call, at one element of the block it stores.

  The body loads a tile of 256 feature rows and the same rows of the context array, and the weights whole: the context
  layer's matrix and bias, the last layer's matrix as its first 2048 and its last 1024 rows, and its bias. It computes the
  transformed context (an affine layer and the positive part) and the output feature (the sum of the two products, the
  bias, the positive part). Read at `(r, j)` the stored value is the output feature `featRow` of the tile's row `r`.
-/
import proofs.«428669_j84610855731244_3_alg».proof.Proof.Gen.KernelIdeal.Skeleton
import proofs.«428669_j84610855731244_3_alg».proof.Proof.Spec
import proofs.«428669_j84610855731244_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.Ican.Body1

open Cert.KernelIdeal Cert.KernelIdeal.Gen Cert.Ican
open Idealize.ShloMosaic Idealize.ShloMosaic.TcCoe Idealize.ShloMosaic.ValueIdx
open scoped BigOperators

/-- One affine layer as the body spells it — a product into the zero accumulator plus a `[1, N]` bias row broadcast down
    the rows — at `(p, j)`: `(∑ k, x k * W (k, j)) + b (0, j)`, where `x` is row `p` of the left operand. -/
theorem affine_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨2, ![1, N]⟩ .f32)
    (hb : (⟨2, ![1, N]⟩ : Shape).Broadcasts ⟨2, ![n, N]⟩) (p : Fin n) (j : Fin N) (x : Fin K → EReal)
    (hx : ∀ k, A (ix2 p k) = x k) :
    addf (matmul d none A W (constant ⟨2, ![n, N]⟩ .f32 0x00000000#32)) (broadcastTo ⟨2, ![n, N]⟩ b hb) (ix2 p j)
      = (∑ k : Fin K, x k * W (ix2 k j)) + b (ix2 0 j) := by
  rw [addf_apply, Cert.LibRowOps.prod_apply d hd A W p j x hx, broadcastTo_1b_ab_apply]

/-- The same layer followed by the positive part (the maximum with the zero word), at `(p, j)`: `relu1` of row `p`,
    column `j` of the weights and entry `j` of the bias. -/
theorem reluLayer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨2, ![1, N]⟩ .f32)
    (hb : (⟨2, ![1, N]⟩ : Shape).Broadcasts ⟨2, ![n, N]⟩) (p : Fin n) (j : Fin N) (x : Fin K → EReal)
    (hx : ∀ k, A (ix2 p k) = x k) :
    maximumf (addf (matmul d none A W (constant ⟨2, ![n, N]⟩ .f32 0x00000000#32)) (broadcastTo ⟨2, ![n, N]⟩ b hb))
        (broadcast ⟨2, ![n, N]⟩ (Scalar.ofBits (F := Ideal) .f32 0x00000000#32)) (ix2 p j)
      = relu1 x (fun k => W (ix2 k j)) (b (ix2 0 j)) := by
  rw [maximumf_apply, broadcast_apply, affine_apply d hd A W b hb p j x hx]
  rfl

/-- The body's stored value at `(r, j)` of its `[256, 1024]` block is the output feature of the block's row `r`. -/
theorem pay1_apply (v0 : Vec Ideal S256x2048 .f32) (v2 : Vec Ideal S256x512 .f32) (v5 : Vec Ideal S512x1024 .bf16)
    (v8 : Vec Ideal S1x1024 .f32) (v15 : Vec Ideal S2048x1024 .bf16) (v17 : Vec Ideal S1024x1024 .bf16)
    (v22 : Vec Ideal S1x1024 .f32) (r : Fin 256) (j : Fin 1024) :
    k1_pay1 (F := Ideal) v0 v2 v5 v8 v15 v17 v22 (ix2 r j)
      = featRow (fun f => v0 (ix2 r f)) (fun c => v2 (ix2 r c)) (fun c d => v5 (ix2 c d)) (fun d => v8 (ix2 0 d))
          (fun f j' => v15 (ix2 f j')) (fun d j' => v17 (ix2 d j')) (fun d => v22 (ix2 0 d)) j := by
  unfold k1_pay1
  simp only [shapeCast_self]
  -- the transformed context, as the body computes it, at `(r, d)`
  have ht : ∀ d : Fin 1024,
      truncf .bf16
          (maximumf
            (addf
              (matmul dot_S256x512_S512x1024_S256x1024_1_0_0_1_n_n none (truncf .bf16 v2 bitsLt_bf16_f32)
                (v5 : FVec Ideal S512x1024 .bf16) (constant S256x1024 .f32 0x00000000#32))
              (broadcastTo S256x1024 (v8 : FVec Ideal S1x1024 .f32) broadcasts_S1x1024_S256x1024))
            (broadcast S256x1024 (Scalar.ofBits (F := Ideal) .f32 0x00000000#32)))
          bitsLt_bf16_f32 (ix2 r d)
        = tRow (fun c => v2 (ix2 r c)) (fun c d => v5 (ix2 c d)) (fun d => v8 (ix2 0 d)) d := fun d =>
    (truncf_apply (ψ := .bf16) _ bitsLt_bf16_f32 (ix2 r d)).trans
      (reluLayer_apply (φa := .bf16) (φw := .bf16) dot_S256x512_S512x1024_S256x1024_1_0_0_1_n_n rfl
        (truncf .bf16 v2 bitsLt_bf16_f32) v5 v8 broadcasts_S1x1024_S256x1024 r d (fun c => v2 (ix2 r c)) (fun k => rfl))
  rw [maximumf_apply, broadcast_apply, addf_apply, addf_apply,
    broadcastTo_1b_ab_apply (v22 : FVec Ideal S1x1024 .f32) broadcasts_S1x1024_S256x1024 r j,
    Cert.LibRowOps.prod_apply (φa := .bf16) (φw := .bf16) dot_S256x2048_S2048x1024_S256x1024_1_0_0_1_n_n rfl
      (truncf .bf16 v0 bitsLt_bf16_f32) v15 r j
      (fun f => v0 (ix2 r f)) (fun k => rfl),
    Cert.LibRowOps.prod_apply (φa := .bf16) (φw := .bf16) dot_S256x1024_S1024x1024_S256x1024_1_0_0_1_n_n rfl _ v17 r j
      (tRow (fun c => v2 (ix2 r c)) (fun c d => v5 (ix2 c d)) (fun d => v8 (ix2 0 d))) ht]
  rfl

end Cert.Ican.Body1

end
-- ==== Proof.Region1.lean ====
/-
  Region 1 (the fused context-and-concatenation call): what its output array holds after the run.

  The call's grid has two points, each a tile of 256 rows; at a point the body reads the tile's feature rows and context
  rows and the weights whole, and stores the tile's output features. So the output array `[512, 1024]` holds at `(i, j)`
  the output feature `featRow` of row `i`, read from the arrays as the region finds them.
-/
import proofs.«428669_j84610855731244_3_alg».proof.Proof.Gen.KernelIdeal.Frame
import proofs.«428669_j84610855731244_3_alg».proof.Proof.Spec
import proofs.«428669_j84610855731244_3_alg».proof.Proof.Body1
import proofs.«428669_j84610855731244_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Ican.Region1

open Cert.KernelIdeal Cert.KernelIdeal.Gen Cert.Ican Cert.Ican.Body1
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The body's stored value at any index of its block, from the blocks it loads. -/
theorem pay1_at (x0 : Vec Ideal S256x2048 .f32) (x1 : Vec Ideal S256x512 .f32) (x2 : Vec Ideal S512x1024 .bf16)
    (x3 : Vec Ideal S1x1024 .f32) (x4 : Vec Ideal S2048x1024 .bf16) (x5 : Vec Ideal S1024x1024 .bf16)
    (x6 : Vec Ideal S1x1024 .f32) (y : S256x1024.Idx) :
    k1_pay1 (F := Ideal) x0 x1 x2 x3 x4 x5 x6 y
      = featRow (fun f => x0 (ix2 (y 0) f)) (fun c => x1 (ix2 (y 0) c)) (fun c d => x2 (ix2 c d)) (fun d => x3 (ix2 0 d))
          (fun f j' => x4 (ix2 f j')) (fun d j' => x5 (ix2 d j')) (fun d => x6 (ix2 0 d)) (y 1) := by
  obtain ⟨p, q, rfl⟩ : ∃ (p : Fin 256) (q : Fin 1024), y = ix2 p q := ⟨y 0, y 1, eq_ix2 y⟩
  exact pay1_apply x0 x1 x2 x3 x4 x5 x6 p q

/-- The printed index maps, decided over the two points: the row-tiled windows are at block `(t, 0)`, the resident ones
    at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the tile of point `t` is row `256 t + p` of the array. -/
def rowOf (t : Fin cfg1.N) (p : Fin 256) : Fin 512 :=
  ⟨t.val * 256 + p.val, by have := t.isLt; have := p.isLt; have hN : cfg1.N = 2 := N_1; omega⟩

/-- The feature rows' block at point `t`, at `(p, f)`: the array at row `256 t + p`. -/
theorem iblk_0 (c : Dev nD) (t : Fin cfg1.N) (p : Fin 256) (f : Fin 2048) :
    (iblk1 (F := Ideal) V c 0 t : Vec Ideal S256x2048 .f32) (ix2 p f) = V c main_arg0 (ix2 (rowOf t p) f) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 256 + 1 * p.val = t.val * 256 + p.val; omega
  | ⟨1, _⟩ => show win1_0.index t (1 : Fin 2) * 2048 + 1 * f.val = f.val; omega

/-- The context rows' block at point `t`, at `(p, c')`: the array at row `256 t + p`. -/
theorem iblk_1 (c : Dev nD) (t : Fin cfg1.N) (p : Fin 256) (c' : Fin 512) :
    (iblk1 (F := Ideal) V c 1 t : Vec Ideal S256x512 .f32) (ix2 p c') = V c main_v13 (ix2 (rowOf t p) c') := by
  obtain ⟨-, -, e0, e1, -⟩ := idx_facts t
  unfold iblk1
  rw [View.read_apply]
  show V c main_v13 _ = V c main_v13 _
  congr 1
  funext a
  apply Fin.ext
  match a with
  | ⟨0, _⟩ => show win1_1.index t (0 : Fin 2) * 256 + 1 * p.val = t.val * 256 + p.val; omega
  | ⟨1, _⟩ => show win1_1.index t (1 : Fin 2) * 512 + 1 * c'.val = c'.val; omega

/-- The resident windows' blocks are their arrays whole, at every point. -/
theorem iblk_2 (c : Dev nD) (t : Fin cfg1.N) (y : S512x1024.Idx) :
    (iblk1 (F := Ideal) V c 2 t : Vec Ideal S512x1024 .bf16) y = V c main_v1 y := by
  obtain ⟨-, -, -, -, e0, e1, -⟩ := idx_facts t
  unfold iblk1
  rw [View.read_apply]
  show V c main_v1 _ = V c main_v1 _
  congr 1
  funext a
  apply Fin.ext
  match a with
  | ⟨0, _⟩ => show win1_2.index t (0 : Fin 2) * 512 + 1 * (y 0).val = (y 0).val; omega
  | ⟨1, _⟩ => show win1_2.index t (1 : Fin 2) * 1024 + 1 * (y 1).val = (y 1).val; omega

theorem iblk_3 (c : Dev nD) (t : Fin cfg1.N) (y : S1x1024.Idx) :
    (iblk1 (F := Ideal) V c 3 t : Vec Ideal S1x1024 .f32) y = V c main_v7 y := by
  obtain ⟨-, -, -, -, -, -, e0, e1, -⟩ := idx_facts t
  unfold iblk1
  rw [View.read_apply]
  show V c main_v7 _ = V c main_v7 _
  congr 1
  funext a
  apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

theorem iblk_4 (c : Dev nD) (t : Fin cfg1.N) (y : S2048x1024.Idx) :
    (iblk1 (F := Ideal) V c 4 t : Vec Ideal S2048x1024 .bf16) y = V c main_v3 y := by
  obtain ⟨-, -, -, -, -, -, -, -, e0, e1, -⟩ := idx_facts t
  unfold iblk1
  rw [View.read_apply]
  show V c main_v3 _ = V c main_v3 _
  congr 1
  funext a
  apply Fin.ext
  match a with
  | ⟨0, _⟩ => show win1_4.index t (0 : Fin 2) * 2048 + 1 * (y 0).val = (y 0).val; omega
  | ⟨1, _⟩ => show win1_4.index t (1 : Fin 2) * 1024 + 1 * (y 1).val = (y 1).val; omega

theorem iblk_5 (c : Dev nD) (t : Fin cfg1.N) (y : S1024x1024.Idx) :
    (iblk1 (F := Ideal) V c 5 t : Vec Ideal S1024x1024 .bf16) y = V c main_v5 y := by
  obtain ⟨-, -, -, -, -, -, -, -, -, -, e0, e1, -⟩ := idx_facts t
  unfold iblk1
  rw [View.read_apply]
  show V c main_v5 _ = V c main_v5 _
  congr 1
  funext a
  apply Fin.ext
  match a with
  | ⟨0, _⟩ => show win1_5.index t (0 : Fin 2) * 1024 + 1 * (y 0).val = (y 0).val; omega
  | ⟨1, _⟩ => show win1_5.index t (1 : Fin 2) * 1024 + 1 * (y 1).val = (y 1).val; omega

theorem iblk_6 (c : Dev nD) (t : Fin cfg1.N) (y : S1x1024.Idx) :
    (iblk1 (F := Ideal) V c 6 t : Vec Ideal S1x1024 .f32) y = V c main_v8 y := by
  obtain ⟨-, -, -, -, -, -, -, -, -, -, -, -, e0, e1, -⟩ := idx_facts t
  unfold iblk1
  rw [View.read_apply]
  show V c main_v8 _ = V c main_v8 _
  congr 1
  funext a
  apply Fin.ext
  match a with
  | ⟨0, _⟩ => show win1_6.index t (0 : Fin 2) * 1 + 1 * (y 0).val = (y 0).val; omega
  | ⟨1, _⟩ => show win1_6.index t (1 : Fin 2) * 1024 + 1 * (y 1).val = (y 1).val; omega

/-- The output feature depends on its seven arguments only through their values. -/
theorem featRow_congr {xr xr' : Fin 2048 → EReal} {cr cr' : Fin 512 → EReal} {wctx wctx' : Fin 512 → Fin 1024 → EReal}
    {bctx bctx' : Fin 1024 → EReal} {wa wa' : Fin 2048 → Fin 1024 → EReal} {wb wb' : Fin 1024 → Fin 1024 → EReal}
    {bcat bcat' : Fin 1024 → EReal} (h0 : ∀ f, xr f = xr' f) (h1 : ∀ c, cr c = cr' c) (h2 : ∀ c d, wctx c d = wctx' c d)
    (h3 : ∀ d, bctx d = bctx' d) (h4 : ∀ f j, wa f j = wa' f j) (h5 : ∀ d j, wb d j = wb' d j) (h6 : ∀ d, bcat d = bcat' d)
    (j : Fin 1024) : featRow xr cr wctx bctx wa wb bcat j = featRow xr' cr' wctx' bctx' wa' wb' bcat' j := by
  obtain rfl : xr = xr' := funext h0
  obtain rfl : cr = cr' := funext h1
  obtain rfl : wctx = wctx' := funext fun c => funext (h2 c)
  obtain rfl : bctx = bctx' := funext h3
  obtain rfl : wa = wa' := funext fun f => funext (h4 f)
  obtain rfl : wb = wb' := funext fun d => funext (h5 d)
  obtain rfl : bcat = bcat' := funext h6
  rfl

/-- The whole output array as one function of the arrays the region finds: at `(p, q)` the output feature of row `p`. -/
def G (c : Dev nD) : S512x1024.Idx → EReal := fun i =>
  featRow (fun f => V c main_arg0 (ix2 (i 0) f)) (fun c' => V c main_v13 (ix2 (i 0) c')) (fun c' d => V c main_v1 (ix2 c' d))
    (fun d => V c main_v7 (ix2 0 d)) (fun f j' => V c main_v3 (ix2 f j')) (fun d j' => V c main_v5 (ix2 d j'))
    (fun d => V c main_v8 (ix2 0 d)) (i 1)

/-- Block `t` of a whole-array function, at `(p, q)`: the function at row `256 t + p`. -/
theorem read_blk7 (c : Dev nD) (t : Fin cfg1.N) (g : S512x1024.Idx → EReal) (p : Fin 256) (q : Fin 1024) :
    ((cfg1.win 7).blk t).view.read (Elt Ideal) g (ix2 p q) = g (ix2 (rowOf t p) q) := by
  obtain ⟨-, -, -, -, -, -, -, -, -, -, -, -, -, -, e0, e1⟩ := idx_facts t
  rw [View.read_apply]
  show g _ = g _
  congr 1
  funext a
  apply Fin.ext
  match a with
  | ⟨0, _⟩ => show win1_7.index t (0 : Fin 2) * 256 + 1 * p.val = t.val * 256 + p.val; omega
  | ⟨1, _⟩ => show win1_7.index t (1 : Fin 2) * 1024 + 1 * q.val = q.val; omega

/-- What point `t` writes back is block `t` of `G`. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S256x2048) hz, View.ld_unit_zero (S := S256x512) hz, View.ld_unit_zero (S := S512x1024) hz,
    View.ld_unit_zero (S := S1x1024) hz, View.ld_unit_zero (S := S2048x1024) hz, View.ld_unit_zero (S := S1024x1024) hz]
  funext y
  obtain ⟨p, q, rfl⟩ : ∃ (p : Fin 256) (q : Fin 1024), y = ix2 p q := ⟨y 0, y 1, eq_ix2 y⟩
  have hx : (win1 7).xinj (grid1.coords t) (ix2 p q) = ix2 p q :=
    funext fun a => Fin.ext (by match a with | ⟨0, _⟩ => rfl | ⟨1, _⟩ => rfl)
  refine (congrArg (k1_pay1 (F := Ideal) (iblk1 V c 0 t) (iblk1 V c 1 t) (iblk1 V c 2 t) (iblk1 V c 3 t) (iblk1 V c 4 t)
    (iblk1 V c 5 t) (iblk1 V c 6 t)) hx).trans ?_
  refine (pay1_apply (iblk1 V c 0 t) (iblk1 V c 1 t) (iblk1 V c 2 t) (iblk1 V c 3 t) (iblk1 V c 4 t) (iblk1 V c 5 t)
    (iblk1 V c 6 t) p q).trans ?_
  refine (featRow_congr (fun f => iblk_0 V c t p f) (fun c' => iblk_1 V c t p c') (fun c' d => iblk_2 V c t (ix2 c' d))
    (fun d => iblk_3 V c t (ix2 0 d)) (fun f j' => iblk_4 V c t (ix2 f j')) (fun d j' => iblk_5 V c t (ix2 d j'))
    (fun d => iblk_6 V c t (ix2 0 d)) q).trans ?_
  exact (read_blk7 c t (G V c) p q).symm

/-- An index of the array is in point `t`'s block iff each coordinate is in the block's range on its axis. -/
theorem mem_blk (t : Fin cfg1.N) (i : S512x1024.Idx) :
    i ∈ ((cfg1.win 7).blk t).view.set ↔ ∀ a : Fin 2, win1_7.index t a * S256x1024.size a ≤ (i a).val
      ∧ (i a).val < win1_7.index t a * S256x1024.size a + S256x1024.size a := by
  show i ∈ ((View.whole main_v14).slice (win1_7.rect t)).set ↔ _
  rw [View.set_slice_whole, Rect.mem_set_unit]
  exact Iff.rfl

/-- Every index of the array is in the block of the point that holds its row: row `i` is in tile `i / 256`. -/
theorem cover (i : S512x1024.Idx) :
    ∃ t : Fin cfg1.N, (cfg1.win 7).flush t = true ∧ i ∈ ((cfg1.win 7).blk t).view.set := by
  have hi0 : (i 0).val < 512 := (i 0).isLt
  have hi1 : (i 1).val < 1024 := (i 1).isLt
  have hN : cfg1.N = 2 := N_1
  refine ⟨⟨(i 0).val / 256, by omega⟩, flush1_7 _, ?_⟩
  obtain ⟨-, -, -, -, -, -, -, -, -, -, -, -, -, -, e0, e1⟩ := idx_facts ⟨(i 0).val / 256, by omega⟩
  rw [mem_blk]
  intro a
  match a with
  | ⟨0, _⟩ =>
    show win1_7.index ⟨(i 0).val / 256, _⟩ (0 : Fin 2) * 256 ≤ (i 0).val
      ∧ (i 0).val < win1_7.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win1_7.index ⟨(i 0).val / 256, _⟩ (1 : Fin 2) * 1024 ≤ (i 1).val
      ∧ (i 1).val < win1_7.index ⟨(i 0).val / 256, _⟩ (1 : Fin 2) * 1024 + 1024
    rw [e1]
    omega

/-- The output array of region 1 after its run, at `(i, j)`. -/
theorem feat_array (c : Dev nD) (i : Fin 512) (j : Fin 1024) :
    (dat1 (F := Ideal) V c).arrAt 7 cfg1.N (ix2 i j)
      = featRow (fun f => V c main_arg0 (ix2 i f)) (fun c' => V c main_v13 (ix2 i c')) (fun c' d => V c main_v1 (ix2 c' d))
          (fun d => V c main_v7 (ix2 0 d)) (fun f j' => V c main_v3 (ix2 f j')) (fun d j' => V c main_v5 (ix2 d j'))
          (fun d => V c main_v8 (ix2 0 d)) j := by
  have h := (dat1 (F := Ideal) V c).arrAt_eq_of_cover 7 (G V c) (fun t _ => flushed_eq V c t) cover
  exact congrFun h (ix2 i j)

end Cert.Ican.Region1

end
-- ==== Proof.Tail.lean ====
/-
  The pair-gathering tail both programs end with, as one function of the feature array and the pair table.

  The features `[512, 1024]` are viewed as `[32, 16, 1024]` (16 objects per image). Each of the 25 relations of an image
  names two objects by their position in the image; a position below zero is counted from the end, and a position outside
  `0 … 15` after that yields the fill value. The result row of a relation is half the sum of its two objects' features;
  the rows are laid out as `[800, 1024]`.
-/
import proofs.«428669_j84610855731244_3_alg».proof.Proof.Gen.KernelIdeal.Launch

noncomputable section

namespace Cert.Ican.Tail

open Cert.KernelIdeal Cert.KernelIdeal.Gen
open Idealize.ShloMosaic Idealize.ShloMosaic.TcCoe Idealize.SL.Sem

variable {F : FTy → Type} [FloatOps F]

/-- One object's features for every relation: the object is the one the index array names, counted from the end when
    negative; the fill value where the position is out of range. -/
def takeObj (x : FVec F S32x16x1024 .f32) (idx : IVec S32x25x1 32) : FVec F S32x25x1024 .f32 :=
  have v4 : IVec S32x25x1 32 := select (cmpi .slt idx (broadcastInDim S32x25x1 ![] bcast_S_S32x25x1 (constantI S_ 32 0#32)))
    (addi idx (broadcastInDim S32x25x1 ![] bcast_S_S32x25x1 (constantI S_ 32 16#32))) idx
  select (broadcastInDim S32x25x1024 ![0, 1] bcast_S32x25_S32x25x1024_0_1
      (Host.reduce IntOp.andi
        (andi (cmpi .sge v4 (broadcastInDim S32x25x1 ![] bcast_S_S32x25x1 (constantI S_ 32 0#32)))
          (cmpi .sle v4 (broadcastInDim S32x25x1 ![0, 1, 2] bcast_S1x1x1_S32x25x1_0_1_2
            (broadcastInDim S1x1x1 ![2] bcast_S1_S1x1x1_2 (constantI S1 32 15#32)))))
        (constantI S_ 1 1#1) reducesTo_S32x25x1_S32x25_d2 h_S_))
    (Host.gather gather_S32x16x1024_S32x25x1_S32x25x1024_2_1_0_0_1_2_111024 x v4)
    (broadcastInDim S32x25x1024 ![] bcast_S_S32x25x1024 (constant S_ .f32 0x7FC00000#32))

/-- Column `o` of the pair table as an index array `[32, 25, 1]`. -/
def pairCol0 (pairs : IVec S32x25x2 32) : IVec S32x25x1 32 :=
  broadcastInDim S32x25x1 ![0, 1] bcast_S32x25_S32x25x1_0_1
    (shapeCast _ (extractStridedSlice S32x25x1 ![0, 0, 0] pairs slices_S32x25x2_S32x25x1_0_0_0) shapeCasts_S32x25x1_S32x25)
def pairCol1 (pairs : IVec S32x25x2 32) : IVec S32x25x1 32 :=
  broadcastInDim S32x25x1 ![0, 1] bcast_S32x25_S32x25x1_0_1
    (shapeCast _ (extractStridedSlice S32x25x1 ![0, 0, 1] pairs slices_S32x25x2_S32x25x1_0_0_1) shapeCasts_S32x25x1_S32x25)

/-- The result: half the sum of the two gathered feature arrays, as `[800, 1024]`. -/
def tailK (feats : FVec F S512x1024 .f32) (pairs : IVec S32x25x2 32) : FVec F S800x1024 .f32 :=
  have x : FVec F S32x16x1024 .f32 := shapeCast _ feats shapeCasts_S512x1024_S32x16x1024
  shapeCast _ (mulf (broadcastInDim S32x25x1024 ![] bcast_S_S32x25x1024 (constant S_ .f32 0x3F000000#32))
    (addf (takeObj x (pairCol0 pairs)) (takeObj x (pairCol1 pairs)))) shapeCasts_S32x25x1024_S800x1024

end Cert.Ican.Tail

end
-- ==== Proof.HostK.lean ====
/-
  The host operations around the two regions of the kernel's program, read at an index.

  Before region 0 the host flattens and re-lays the arguments (the feature rows as `[32, 16, 2048]`, the key and value maps as
  `[32, 512, 2304]`, the biases as one-row matrices) and cuts the last layer's weight matrix into its first 2048 and last
  1024 rows; a change of float format is the identity on the extended reals. Between the regions it views region 0's
  output `[32, 16, 512]` as `[512, 512]`: object `k` of image `b` is row `16 b + k`. After region 1 it applies the
  pair-gathering tail to region 1's output and the pair table.
-/
import proofs.«428669_j84610855731244_3_alg».proof.Proof.Gen.KernelIdeal.Frame
import proofs.«428669_j84610855731244_3_alg».proof.Proof.Spec
import proofs.«428669_j84610855731244_3_alg».proof.Proof.Tail
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Ican.HostK

open Cert.KernelIdeal Cert.KernelIdeal.Gen Cert.Ican Cert.Ican.Tail
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What region 0 finds -/

/-- A `[512, 2048]` array viewed as `[32, 16, 2048]` reads, at `(b, k, f)`, row `16 b + k`, column `f`. -/
theorem cast_rows {α : Type} (x : (⟨2, ![512, 2048]⟩ : Shape).Idx → α)
    (h : (⟨2, ![512, 2048]⟩ : Shape).ShapeCasts ⟨3, ![32, 16, 2048]⟩) (b : Fin 32) (k : Fin 16) (f : Fin 2048) :
    shapeCast ⟨3, ![32, 16, 2048]⟩ x h (ix3 b k f) = x (ix2 (row16 b k) f) :=
  shapeCast_apply x h _ _ (by
    rw [Shape.rowMajor_val_two, Shape.rowMajor_val_three]
    rfl)

theorem V1_v9_arr (c : Dev nD) :
    (V1 m ρ c main_v9 : S32x16x2048.Idx → EReal) = shapeCast _ (m ((c : Thread nD τ).loc main_arg0)) shapeCasts_S512x2048_S32x16x2048 := by
  show StableHlo.after hostOps0 _ (Proc.devRef .tc main_v9) = _
  after_results
  rfl

theorem V1_v9 (c : Dev nD) (b : Fin 32) (k : Fin 16) (f : Fin 2048) :
    V1 m ρ c main_v9 (ix3 b k f) = m ((c : Thread nD τ).loc main_arg0) (ix2 (row16 b k) f) :=
  (congrFun (V1_v9_arr m ρ c) (ix3 b k f)).trans (cast_rows _ _ b k f)

theorem V1_v0_arr (c : Dev nD) :
    @Eq (S2048x512.Idx → EReal) (V1 m ρ c main_v0) (m ((c : Thread nD τ).loc main_arg7)) := by
  show StableHlo.after hostOps0 _ (Proc.devRef .tc main_v0) = _
  after_results
  rfl

theorem V1_v0 (c : Dev nD) (f : Fin 2048) (c' : Fin 512) :
    V1 m ρ c main_v0 (ix2 f c') = m ((c : Thread nD τ).loc main_arg7) (ix2 f c') :=
  congrFun (V1_v0_arr m ρ c) (ix2 f c')

theorem V1_v6_arr (c : Dev nD) :
    (V1 m ρ c main_v6 : S1x512.Idx → EReal) = shapeCast _ (m ((c : Thread nD τ).loc main_arg8)) shapeCasts_S512_S1x512 := by
  show StableHlo.after hostOps0 _ (Proc.devRef .tc main_v6) = _
  after_results
  rfl

theorem V1_v6 (c : Dev nD) (c' : Fin 512) :
    V1 m ρ c main_v6 (ix2 0 c') = m ((c : Thread nD τ).loc main_arg8) (ix1 c') :=
  (congrFun (V1_v6_arr m ρ c) (ix2 0 c')).trans (shapeCast_a_1a_apply _ _ 0 c')

theorem V1_v10 (c : Dev nD) :
    V1 m ρ c main_v10 = shapeCast S32x512x2304 (m ((c : Thread nD τ).loc main_arg1)) shapeCasts_S32x512x48x48_S32x512x2304 := by
  show StableHlo.after hostOps0 _ (Proc.devRef .tc main_v10) = _
  after_results
  rfl

theorem V1_v11 (c : Dev nD) :
    V1 m ρ c main_v11 = shapeCast S32x512x2304 (m ((c : Thread nD τ).loc main_arg2)) shapeCasts_S32x512x48x48_S32x512x2304 := by
  show StableHlo.after hostOps0 _ (Proc.devRef .tc main_v11) = _
  after_results
  rfl

/-! ## What region 1 finds -/

/-- A buffer that is neither one of region 0's arrays nor the view written between the regions is, at region 1's
    entry, what it was at region 0's entry. -/
theorem V3_of_ne (c : Dev nD) (r : Ref sig .tc) (h1 : r ≠ main_v13) (h0 : ∀ w, Pipeline.arrRef spec0 w ≠ r) :
    V3 m ρ c r = V1 m ρ c r :=
  calc W3 m ρ c (Proc.devRef .tc r)
    _ = W2 m ρ c (Proc.devRef .tc r) := StableHlo.after_of_forall_not_mem (b := Proc.devRef .tc r) _ _ (List.forall_iff_forall_mem.mp (by
          simp only [hostOps1, List.Forall, StableHlo.reshape_writes, Finset.mem_singleton]
          exact StableHlo.devRef_ne_of_ne h1))
    _ = W1 m ρ c (Proc.devRef .tc r) := W2_of_ne m ρ c r h0

theorem V1_arg0 (c : Dev nD) : V1 m ρ c main_arg0 = m ((c : Thread nD τ).loc main_arg0) := by
  show StableHlo.after hostOps0 _ (Proc.devRef .tc main_arg0) = _
  after_results

theorem V3_arg0 (c : Dev nD) : V3 m ρ c main_arg0 = m ((c : Thread nD τ).loc main_arg0) :=
  (V3_of_ne m ρ c main_arg0 (by decide) (by decide)).trans (V1_arg0 m ρ c)

/-- A `[32, 16, 512]` array viewed as `[512, 512]` reads, at row `16 b + k` and column `cc`, the entry `(b, k, cc)`. -/
theorem cast_flat {α : Type} (x : (⟨3, ![32, 16, 512]⟩ : Shape).Idx → α)
    (h : (⟨3, ![32, 16, 512]⟩ : Shape).ShapeCasts ⟨2, ![512, 512]⟩) (b : Fin 32) (k : Fin 16) (cc : Fin 512) :
    shapeCast ⟨2, ![512, 512]⟩ x h (ix2 (row16 b k) cc) = x (ix3 b k cc) :=
  shapeCast_apply x h _ _ (by
    rw [Shape.rowMajor_val_two, Shape.rowMajor_val_three]
    rfl)

theorem V3_v13_arr (c : Dev nD) :
    (V3 m ρ c main_v13 : S512x512.Idx → EReal)
      = shapeCast _ ((dat0 (V1 m ρ) c).arrAt 5 cfg0.N : S32x16x512.Idx → EReal) shapeCasts_S32x16x512_S512x512 := by
  have e : (V3 m ρ c main_v13 : S512x512.Idx → EReal)
      = shapeCast _ (W2 m ρ c (Proc.devRef .tc main_v12)) shapeCasts_S32x16x512_S512x512 := by
    show StableHlo.after hostOps1 _ (Proc.devRef .tc main_v13) = _
    after_results
    rfl
  exact e.trans (congrArg (fun x => shapeCast S512x512 x shapeCasts_S32x16x512_S512x512) (W2_arr m ρ c 5))

theorem V3_v13 (c : Dev nD) (b : Fin 32) (k : Fin 16) (cc : Fin 512) :
    V3 m ρ c main_v13 (ix2 (row16 b k) cc) = (dat0 (V1 m ρ) c).arrAt 5 cfg0.N (ix3 b k cc) :=
  (congrFun (V3_v13_arr m ρ c) (ix2 (row16 b k) cc)).trans (cast_flat _ _ b k cc)

theorem V1_v1_arr (c : Dev nD) :
    @Eq (S512x1024.Idx → EReal) (V1 m ρ c main_v1) (m ((c : Thread nD τ).loc main_arg9)) := by
  show StableHlo.after hostOps0 _ (Proc.devRef .tc main_v1) = _
  after_results
  rfl

theorem V3_v1 (c : Dev nD) (c' : Fin 512) (d : Fin 1024) :
    V3 m ρ c main_v1 (ix2 c' d) = m ((c : Thread nD τ).loc main_arg9) (ix2 c' d) :=
  congrFun ((V3_of_ne m ρ c main_v1 (by decide) (by decide)).trans (V1_v1_arr m ρ c)) (ix2 c' d)

theorem V1_v7_arr (c : Dev nD) :
    (V1 m ρ c main_v7 : S1x1024.Idx → EReal) = shapeCast _ (m ((c : Thread nD τ).loc main_arg10)) shapeCasts_S1024_S1x1024 := by
  show StableHlo.after hostOps0 _ (Proc.devRef .tc main_v7) = _
  after_results
  rfl

theorem V3_v7 (c : Dev nD) (d : Fin 1024) :
    V3 m ρ c main_v7 (ix2 0 d) = m ((c : Thread nD τ).loc main_arg10) (ix1 d) :=
  (congrFun ((V3_of_ne m ρ c main_v7 (by decide) (by decide)).trans (V1_v7_arr m ρ c)) (ix2 0 d)).trans
    (shapeCast_a_1a_apply _ _ 0 d)

theorem V1_v3_arr (c : Dev nD) :
    @Eq (S2048x1024.Idx → EReal) (V1 m ρ c main_v3)
      (extractStridedSlice S2048x1024 ![0, 0] (m ((c : Thread nD τ).loc main_arg11)) slices_S3072x1024_S2048x1024_0_0) := by
  show StableHlo.after hostOps0 _ (Proc.devRef .tc main_v3) = _
  after_results
  rfl

theorem V3_v3 (c : Dev nD) (f : Fin 2048) (j : Fin 1024) :
    V3 m ρ c main_v3 (ix2 f j) = m ((c : Thread nD τ).loc main_arg11) (ix2 (lo f) j) :=
  (congrFun ((V3_of_ne m ρ c main_v3 (by decide) (by decide)).trans (V1_v3_arr m ρ c)) (ix2 f j)).trans
    (slice2_axis0_apply 0 _ _ f j (lo f) (Nat.zero_add _).symm)

theorem V1_v5_arr (c : Dev nD) :
    @Eq (S1024x1024.Idx → EReal) (V1 m ρ c main_v5)
      (extractStridedSlice S1024x1024 ![2048, 0] (m ((c : Thread nD τ).loc main_arg11)) slices_S3072x1024_S1024x1024_2048_0) := by
  show StableHlo.after hostOps0 _ (Proc.devRef .tc main_v5) = _
  after_results
  rfl

theorem V3_v5 (c : Dev nD) (d : Fin 1024) (j : Fin 1024) :
    V3 m ρ c main_v5 (ix2 d j) = m ((c : Thread nD τ).loc main_arg11) (ix2 (hi d) j) :=
  (congrFun ((V3_of_ne m ρ c main_v5 (by decide) (by decide)).trans (V1_v5_arr m ρ c)) (ix2 d j)).trans
    (slice2_axis0_apply 2048 _ _ d j (hi d) rfl)

theorem V1_v8_arr (c : Dev nD) :
    (V1 m ρ c main_v8 : S1x1024.Idx → EReal) = shapeCast _ (m ((c : Thread nD τ).loc main_arg12)) shapeCasts_S1024_S1x1024 := by
  show StableHlo.after hostOps0 _ (Proc.devRef .tc main_v8) = _
  after_results
  rfl

theorem V3_v8 (c : Dev nD) (d : Fin 1024) :
    V3 m ρ c main_v8 (ix2 0 d) = m ((c : Thread nD τ).loc main_arg12) (ix1 d) :=
  (congrFun ((V3_of_ne m ρ c main_v8 (by decide) (by decide)).trans (V1_v8_arr m ρ c)) (ix2 0 d)).trans
    (shapeCast_a_1a_apply _ _ 0 d)

/-! ## After region 1 -/

/-- Closes `after ops V b = V b` for a literal stretch `ops` none of whose operations writes the reference `b`. -/
macro "untouched" : tactic =>
  `(tactic| (refine StableHlo.after_of_forall_not_mem _ _ (List.forall_iff_forall_mem.mp ?_)
             simp only [hostOps0, hostOps2, hostOps2_1, hostOps2_2, hostOps2_3, hostOps2_4, List.Forall,
               StableHlo.nullary_writes, StableHlo.unary_writes, StableHlo.binary_writes, StableHlo.ternary_writes,
               StableHlo.reshape_writes, Finset.mem_singleton]
             repeat' apply And.intro
             all_goals exact StableHlo.devRef_ne_of_ne (by decide)))

/-- The pair table is untouched up to region 1's exit. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W1 m ρ c (Proc.devRef .tc main_arg4) := V3_of_ne m ρ c main_arg4 (by decide) (by decide)
    _ = m ((c : Thread nD τ).loc main_arg4) := by
          show StableHlo.after hostOps0 (W0 m ρ c) (Proc.devRef .tc main_arg4) = W0 m ρ c (Proc.devRef .tc main_arg4)
          untouched

/-- After the first host stretch: the features viewed as `[32, 16, 1024]`. -/
theorem W5_v15 (c : Dev nD) :
    (W5 m ρ c (Proc.devRef .tc main_v15) : FVec Ideal S32x16x1024 .f32)
      = shapeCast _ ((dat1 (V3 m ρ) c).arrAt 7 cfg1.N : FVec Ideal S512x1024 .f32) shapeCasts_S512x1024_S32x16x1024 := by
  have e : (W5 m ρ c (Proc.devRef .tc main_v15) : FVec Ideal S32x16x1024 .f32)
      = shapeCast _ (W4 m ρ c (Proc.devRef .tc main_v14)) shapeCasts_S512x1024_S32x16x1024 := by
    show StableHlo.after hostOps2 _ (Proc.devRef .tc main_v15) = _
    after_results
    rfl
  exact e.trans (congrArg (fun x => shapeCast S32x16x1024 x shapeCasts_S512x1024_S32x16x1024) (W4_arr m ρ c 7))

/-- After the first host stretch: the first column of the pair table. -/
theorem W5_v18 (c : Dev nD) :
    (W5 m ρ c (Proc.devRef .tc main_v18) : IVec S32x25x1 32) = pairCol0 (m ((c : Thread nD τ).loc main_arg4)) := by
  have e : (W5 m ρ c (Proc.devRef .tc main_v18) : IVec S32x25x1 32) = pairCol0 (W4 m ρ c (Proc.devRef .tc main_arg4)) := by
    show StableHlo.after hostOps2 _ (Proc.devRef .tc main_v18) = _
    after_results
    rfl
  exact e.trans (congrArg pairCol0 (W4_arg4 m ρ c))

/-- The first gathering stretch, from any contents: its result is the objects the index array names, taken from the
    viewed features. -/
theorem run_take0 (V : Valuation τ sig (Elt Ideal)) :
    (StableHlo.after hostOps2_1 V (Proc.devRef .tc main_v19) : FVec Ideal S32x25x1024 .f32)
      = takeObj (F := Ideal) (V (Proc.devRef .tc main_v15)) (V (Proc.devRef .tc main_v18)) := by
  after_results_simp
  rfl

/-- After the first gathering stretch: the first objects' features. -/
theorem W6_v19 (c : Dev nD) :
    (W6 m ρ c (Proc.devRef .tc main_v19) : FVec Ideal S32x25x1024 .f32)
      = takeObj (F := Ideal) (W5 m ρ c (Proc.devRef .tc main_v15)) (W5 m ρ c (Proc.devRef .tc main_v18)) :=
  run_take0 (W5 m ρ c)

/-- The pair table is untouched by the first two stretches after region 1. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by
          show StableHlo.after hostOps2_1 (W5 m ρ c) (Proc.devRef .tc main_arg4) = W5 m ρ c (Proc.devRef .tc main_arg4)
          untouched
    _ = W4 m ρ c (Proc.devRef .tc main_arg4) := by
          show StableHlo.after hostOps2 (W4 m ρ c) (Proc.devRef .tc main_arg4) = W4 m ρ c (Proc.devRef .tc main_arg4)
          untouched
    _ = m ((c : Thread nD τ).loc main_arg4) := W4_arg4 m ρ c

/-- The viewed features are carried through the first gathering stretch and the second column's stretch. -/
theorem W7_v15 (c : Dev nD) : W7 m ρ c (Proc.devRef .tc main_v15) = W5 m ρ c (Proc.devRef .tc main_v15) :=
  calc W7 m ρ c (Proc.devRef .tc main_v15)
    _ = W6 m ρ c (Proc.devRef .tc main_v15) := by
          show StableHlo.after hostOps2_2 (W6 m ρ c) (Proc.devRef .tc main_v15) = W6 m ρ c (Proc.devRef .tc main_v15)
          untouched
    _ = W5 m ρ c (Proc.devRef .tc main_v15) := by
          show StableHlo.after hostOps2_1 (W5 m ρ c) (Proc.devRef .tc main_v15) = W5 m ρ c (Proc.devRef .tc main_v15)
          untouched

/-- The second column's stretch, from any contents: its result is the second column of the pair table. -/
theorem run_col1 (V : Valuation τ sig (Elt Ideal)) :
    (StableHlo.after hostOps2_2 V (Proc.devRef .tc main_v22) : IVec S32x25x1 32) = pairCol1 (V (Proc.devRef .tc main_arg4)) := by
  after_results
  rfl

/-- After the second column's stretch: the second column of the pair table. -/
theorem W7_v22 (c : Dev nD) :
    (W7 m ρ c (Proc.devRef .tc main_v22) : IVec S32x25x1 32) = pairCol1 (m ((c : Thread nD τ).loc main_arg4)) :=
  (run_col1 (W6 m ρ c)).trans (congrArg pairCol1 (W6_arg4 m ρ c))

/-- The second gathering stretch, from any contents. -/
theorem run_take1 (V : Valuation τ sig (Elt Ideal)) :
    (StableHlo.after hostOps2_3 V (Proc.devRef .tc main_v23) : FVec Ideal S32x25x1024 .f32)
      = takeObj (F := Ideal) (V (Proc.devRef .tc main_v15)) (V (Proc.devRef .tc main_v22)) := by
  after_results_simp
  rfl

/-- After the second gathering stretch: the second objects' features. -/
theorem W8_v23 (c : Dev nD) :
    (W8 m ρ c (Proc.devRef .tc main_v23) : FVec Ideal S32x25x1024 .f32)
      = takeObj (F := Ideal) (W7 m ρ c (Proc.devRef .tc main_v15)) (W7 m ρ c (Proc.devRef .tc main_v22)) :=
  run_take1 (W7 m ρ c)

/-- The first objects' features are carried through the second column's stretch and the second gathering stretch. -/
theorem W8_v19 (c : Dev nD) : W8 m ρ c (Proc.devRef .tc main_v19) = W6 m ρ c (Proc.devRef .tc main_v19) :=
  calc W8 m ρ c (Proc.devRef .tc main_v19)
    _ = W7 m ρ c (Proc.devRef .tc main_v19) := by
          show StableHlo.after hostOps2_3 (W7 m ρ c) (Proc.devRef .tc main_v19) = W7 m ρ c (Proc.devRef .tc main_v19)
          untouched
    _ = W6 m ρ c (Proc.devRef .tc main_v19) := by
          show StableHlo.after hostOps2_2 (W6 m ρ c) (Proc.devRef .tc main_v19) = W6 m ρ c (Proc.devRef .tc main_v19)
          untouched

/-- The last stretch, from any contents: half the sum of the two gathered arrays, laid out as `[800, 1024]`. -/
theorem run_last (V : Valuation τ sig (Elt Ideal)) :
    (StableHlo.after hostOps2_4 V (Proc.devRef .tc main_v27) : FVec Ideal S800x1024 .f32)
      = shapeCast _ (mulf (broadcastInDim S32x25x1024 ![] bcast_S_S32x25x1024 (constant (F := Ideal) S_ .f32 0x3F000000#32))
          (addf (V (Proc.devRef .tc main_v19) : FVec Ideal S32x25x1024 .f32) (V (Proc.devRef .tc main_v23))))
          shapeCasts_S32x25x1024_S800x1024 := by
  after_results
  rfl

/-- The two gathered arrays at the last boundary but one, from region 1's output array and the pair table. -/
theorem W8_v19_eq (c : Dev nD) :
    (W8 m ρ c (Proc.devRef .tc main_v19) : FVec Ideal S32x25x1024 .f32)
      = takeObj (F := Ideal) (shapeCast _ ((dat1 (V3 m ρ) c).arrAt 7 cfg1.N : FVec Ideal S512x1024 .f32) shapeCasts_S512x1024_S32x16x1024)
          (pairCol0 (m ((c : Thread nD τ).loc main_arg4))) := by
  rw [W8_v19, W6_v19, W5_v15, W5_v18]

theorem W8_v23_eq (c : Dev nD) :
    (W8 m ρ c (Proc.devRef .tc main_v23) : FVec Ideal S32x25x1024 .f32)
      = takeObj (F := Ideal) (shapeCast _ ((dat1 (V3 m ρ) c).arrAt 7 cfg1.N : FVec Ideal S512x1024 .f32) shapeCasts_S512x1024_S32x16x1024)
          (pairCol1 (m ((c : Thread nD τ).loc main_arg4))) := by
  rw [W8_v23, W7_v15, W7_v22, W5_v15]

/-- The result buffer at the last boundary is the tail of region 1's output array and the pair table. -/
theorem W9_out (c : Dev nD) :
    (W9 m ρ c (Proc.devRef .tc main_v27) : FVec Ideal S800x1024 .f32)
      = tailK (F := Ideal) ((dat1 (V3 m ρ) c).arrAt 7 cfg1.N) (m ((c : Thread nD τ).loc main_arg4)) := by
  refine (run_last (W8 m ρ c)).trans ?_
  rw [W8_v19_eq, W8_v23_eq]
  rfl

end Cert.Ican.HostK

end
-- ==== Proof.RefCtx.lean ====
/-
  The reference program's context array, read at an index.

  The reference computes the queries for all 512 objects at once, views them as `[32, 16, 512]`, takes the batched product
  with the flattened key maps, the softmax along the last axis (the row maximum from minus infinity, taken once more
  against minus infinity, subtracted before the exponential; the sum from zero), and the batched product with the
  flattened value maps. At `(b, k, c)` this is the context `ctxArr` of object `k` of image `b`.
-/
import proofs.«428669_j84610855731244_3_alg».proof.Proof.RefRead
import proofs.«428669_j84610855731244_3_alg».proof.Proof.Spec
import proofs.«428669_j84610855731244_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.Ican.RefCtx

open Cert.ReferenceIdeal Cert.ReferenceIdeal.Gen Cert.ReferenceIdeal.ReadP Cert.Ican
open Idealize.ShloMosaic Idealize.ShloMosaic.TcCoe Idealize.ShloMosaic.ValueIdx
open scoped BigOperators

/-! ## The index maps of the operations, at explicit coordinates -/

/-- The view `[512, 512] → [32, 16, 512]` reads row `16 b + k`. -/
theorem idx5_eq (b : Fin 32) (k : Fin 16) (c : Fin 512) : idx_main_v5 (ix3 b k c) = ix2 (row16 b k) c :=
  funext fun a => Fin.ext (by
    have hb := b.isLt; have hk := k.isLt; have hc := c.isLt
    match a with
    | ⟨0, _⟩ => show ((b.val * 16 + k.val) * 512 + c.val) / 512 = b.val * 16 + k.val; omega
    | ⟨1, _⟩ => show ((b.val * 16 + k.val) * 512 + c.val) % 512 = c.val; omega)

theorem lidx0_eq (r c : Fin 512) (f : Fin 2048) : lidx_main_v0 (ix2 r c) f = ix2 r f :=
  funext fun a => Fin.ext (by match a with | ⟨0, _⟩ => rfl | ⟨1, _⟩ => rfl)

theorem ridx0_eq (r c : Fin 512) (f : Fin 2048) : ridx_main_v0 (ix2 r c) f = ix2 f c :=
  funext fun a => Fin.ext (by match a with | ⟨0, _⟩ => rfl | ⟨1, _⟩ => rfl)

theorem idx12_eq (r c : Fin 512) : idx_main_v1 (idx_main_v2 (ix2 r c)) = ix1 c :=
  funext fun a => Fin.ext (by match a with | ⟨0, _⟩ => rfl)

theorem lidx8_eq (b : Fin 32) (k : Fin 16) (h : Fin 2304) (c : Fin 512) : lidx_main_v8 (ix3 b k h) c = ix3 b k c :=
  funext fun a => Fin.ext (by match a with | ⟨0, _⟩ => rfl | ⟨1, _⟩ => rfl | ⟨2, _⟩ => rfl)

theorem ridx8_eq (b : Fin 32) (k : Fin 16) (h : Fin 2304) (c : Fin 512) : ridx_main_v8 (ix3 b k h) c = ix3 b c h :=
  funext fun a => Fin.ext (by match a with | ⟨0, _⟩ => rfl | ⟨1, _⟩ => rfl | ⟨2, _⟩ => rfl)

/-- A row index with the position inserted on the reduced (last) axis. -/
theorem lift_eq (hr : Shape.Reduces S32x16x2304 [2] S32x16) (b : Fin 32) (k : Fin 16) (h : Fin 2304) :
    hr.lift (ix2 b k) h = ix3 b k h :=
  funext fun a => Fin.ext (by match a with | ⟨0, _⟩ => rfl | ⟨1, _⟩ => rfl | ⟨2, _⟩ => rfl)

theorem idx1213_eq (b : Fin 32) (k : Fin 16) (h : Fin 2304) : idx_main_v12 (idx_main_v13 (ix3 b k h)) = ix2 b k :=
  funext fun a => Fin.ext (by match a with | ⟨0, _⟩ => rfl | ⟨1, _⟩ => rfl)

theorem idx16_eq (b : Fin 32) (k : Fin 16) (h : Fin 2304) : idx_main_v16 (ix2 b k) h = ix3 b k h :=
  funext fun a => Fin.ext (by match a with | ⟨0, _⟩ => rfl | ⟨1, _⟩ => rfl | ⟨2, _⟩ => rfl)

theorem idx1718_eq (b : Fin 32) (k : Fin 16) (h : Fin 2304) : idx_main_v17 (idx_main_v18 (ix3 b k h)) = ix2 b k :=
  funext fun a => Fin.ext (by match a with | ⟨0, _⟩ => rfl | ⟨1, _⟩ => rfl)

theorem lidx20_eq (b : Fin 32) (k : Fin 16) (c : Fin 512) (h : Fin 2304) : lidx_main_v20 (ix3 b k c) h = ix3 b k h :=
  funext fun a => Fin.ext (by match a with | ⟨0, _⟩ => rfl | ⟨1, _⟩ => rfl | ⟨2, _⟩ => rfl)

theorem ridx20_eq (b : Fin 32) (k : Fin 16) (c : Fin 512) (h : Fin 2304) : ridx_main_v20 (ix3 b k c) h = ix3 b c h :=
  funext fun a => Fin.ext (by match a with | ⟨0, _⟩ => rfl | ⟨1, _⟩ => rfl | ⟨2, _⟩ => rfl)

/-- The view `[32, 16, 512] → [512, 512]` reads row `16 b + k` at `(b, k)`. -/
theorem idx21_eq (b : Fin 32) (k : Fin 16) (c : Fin 512) : idx_main_v21 (ix2 (row16 b k) c) = ix3 b k c :=
  funext fun a => Fin.ext (by
    have hb := b.isLt; have hk := k.isLt; have hc := c.isLt
    match a with
    | ⟨0, _⟩ => show ((b.val * 16 + k.val) * 512 + c.val) / 8192 = b.val; omega
    | ⟨1, _⟩ => show ((b.val * 16 + k.val) * 512 + c.val) / 512 % 16 = k.val; omega
    | ⟨2, _⟩ => show ((b.val * 16 + k.val) * 512 + c.val) % 512 = c.val; omega)

/-! ## The stages, from the inside out -/

/-- The query of object `k` of image `b`. -/
def qOf (x0 : (⟨S512x2048, .f32⟩ : BufTy).Contents (Elt Ideal)) (x7 : (⟨S2048x512, .f32⟩ : BufTy).Contents (Elt Ideal))
    (x8 : (⟨S512, .f32⟩ : BufTy).Contents (Elt Ideal)) (b : Fin 32) (k : Fin 16) : Fin 512 → EReal :=
  qRow (fun f => x0 (ix2 (row16 b k) f)) (fun f c' => x7 (ix2 f c')) (fun c' => x8 (ix1 c'))

/-- The logits of object `k` of image `b` against the flattened key map `kf`. -/
def dOf (x0 : (⟨S512x2048, .f32⟩ : BufTy).Contents (Elt Ideal)) (kf : (⟨S32x512x2304, .f32⟩ : BufTy).Contents (Elt Ideal))
    (x7 : (⟨S2048x512, .f32⟩ : BufTy).Contents (Elt Ideal)) (x8 : (⟨S512, .f32⟩ : BufTy).Contents (Elt Ideal))
    (b : Fin 32) (k : Fin 16) : Fin 2304 → EReal :=
  logits (qOf x0 x7 x8 b k) (fun c' h => kf (ix3 b c' h))

section
variable (x0 : (⟨S512x2048, .f32⟩ : BufTy).Contents (Elt Ideal)) (x1 x2 : (⟨S32x512x48x48, .f32⟩ : BufTy).Contents (Elt Ideal))
  (x7 : (⟨S2048x512, .f32⟩ : BufTy).Contents (Elt Ideal)) (x8 : (⟨S512, .f32⟩ : BufTy).Contents (Elt Ideal))
  (b : Fin 32) (k : Fin 16)

/-- The queries viewed as `[32, 16, 512]`: the affine layer and its positive part, row `16 b + k`. -/
theorem ref_q (c : Fin 512) : val_main_v5 (F := Ideal) x0 x7 x8 (ix3 b k c) = qOf x0 x7 x8 b k c := by
  rw [val_main_v5_apply, val_main_v4_apply, val_main_v3_apply, val_main_v0_apply, val_main_v2_apply, val_main_v1_apply,
    val_main_call0_v0_apply, val_main_call0_cst_apply, idx5_eq]
  simp only [lidx0_eq, ridx0_eq, idx12_eq, Ideal.maximumf_def, Ideal.addf_def, Ideal.ofBits_def]
  rfl

/-- The batched product with the key maps: the logits. -/
theorem ref_logits (h : Fin 2304) :
    val_main_v8 (F := Ideal) x0 x1 x7 x8 (ix3 b k h) = dOf x0 (val_main_v6 (F := Ideal) x1) x7 x8 b k h := by
  rw [val_main_v8_apply]
  unfold dOf logits
  refine Finset.sum_congr rfl fun c _ => ?_
  rw [lidx8_eq, ridx8_eq, ref_q]

/-- The maximum along the last axis, folded from minus infinity. -/
theorem ref_max : val_main_v9 (F := Ideal) x0 x1 x7 x8 (ix2 b k) = rowMax (dOf x0 (val_main_v6 (F := Ideal) x1) x7 x8 b k) := by
  have hr : Shape.Reduces S32x16x2304 [2] S32x16 := by decide
  unfold val_main_v9
  rw [Host.reduce_eq_fold_single FloatOps.maximumf _ _ _ hr _ (ix2 b k)]
  have hf : (val_main_v8 (F := Ideal) x0 x1 x7 x8 ∘ hr.lift (ix2 b k)) = dOf x0 (val_main_v6 (F := Ideal) x1) x7 x8 b k :=
    funext fun h =>
      (congrArg (val_main_v8 (F := Ideal) x0 x1 x7 x8) (lift_eq hr b k h)).trans (ref_logits x0 x1 x7 x8 b k h)
  rw [hf]
  rfl

/-- The maximum taken once more against minus infinity is the same maximum. -/
theorem ref_max' : val_main_v11 (F := Ideal) x0 x1 x7 x8 (ix2 b k) = rowMax (dOf x0 (val_main_v6 (F := Ideal) x1) x7 x8 b k) := by
  rw [val_main_v11_apply, val_main_v10_apply, val_main_cst_0_apply, ref_max]
  unfold rowMax
  exact max_fold_self _ _ _

/-- … broadcast back along the row. -/
theorem ref_maxB (h : Fin 2304) :
    val_main_v13 (F := Ideal) x0 x1 x7 x8 (ix3 b k h) = rowMax (dOf x0 (val_main_v6 (F := Ideal) x1) x7 x8 b k) := by
  rw [val_main_v13_apply, val_main_v12_apply, idx1213_eq, ref_max']

/-- The exponential of the logit less the row maximum. -/
theorem ref_exp (h : Fin 2304) :
    val_main_v15 (F := Ideal) x0 x1 x7 x8 (ix3 b k h)
      = Ideal.exp (dOf x0 (val_main_v6 (F := Ideal) x1) x7 x8 b k h - rowMax (dOf x0 (val_main_v6 (F := Ideal) x1) x7 x8 b k)) := by
  rw [val_main_v15_apply, val_main_v14_apply, ref_logits, ref_maxB]
  rfl

/-- The sum of the exponentials along the row, from zero. -/
theorem ref_sum :
    val_main_v16 (F := Ideal) x0 x1 x7 x8 (ix2 b k)
      = ∑ h' : Fin 2304, Ideal.exp (dOf x0 (val_main_v6 (F := Ideal) x1) x7 x8 b k h' - rowMax (dOf x0 (val_main_v6 (F := Ideal) x1) x7 x8 b k)) := by
  rw [val_main_v16_apply, val_main_cst_1_apply]
  simp only [Ideal.ofBits_def, Ideal.ofBits_zero_f32, zero_add]
  refine Finset.sum_congr rfl fun h' _ => ?_
  rw [idx16_eq, ref_exp]

/-- … broadcast back along the row. -/
theorem ref_sumB (h : Fin 2304) :
    val_main_v18 (F := Ideal) x0 x1 x7 x8 (ix3 b k h)
      = ∑ h' : Fin 2304, Ideal.exp (dOf x0 (val_main_v6 (F := Ideal) x1) x7 x8 b k h' - rowMax (dOf x0 (val_main_v6 (F := Ideal) x1) x7 x8 b k)) := by
  rw [val_main_v18_apply, val_main_v17_apply, idx1718_eq, ref_sum]

/-- The softmax weight. -/
theorem ref_soft (h : Fin 2304) :
    val_main_v19 (F := Ideal) x0 x1 x7 x8 (ix3 b k h) = soft (dOf x0 (val_main_v6 (F := Ideal) x1) x7 x8 b k) h := by
  rw [val_main_v19_apply, ref_exp, ref_sumB]
  rfl

end

/-- The reference's context array `[32, 16, 512]` at `(b, k, c)`. -/
theorem ref_ctx (x0 : (⟨S512x2048, .f32⟩ : BufTy).Contents (Elt Ideal)) (x1 x2 : (⟨S32x512x48x48, .f32⟩ : BufTy).Contents (Elt Ideal))
    (x7 : (⟨S2048x512, .f32⟩ : BufTy).Contents (Elt Ideal)) (x8 : (⟨S512, .f32⟩ : BufTy).Contents (Elt Ideal))
    (b : Fin 32) (k : Fin 16) (c : Fin 512) :
    val_main_v20 (F := Ideal) x0 x1 x2 x7 x8 (ix3 b k c)
      = ctxArr x0 (val_main_v6 (F := Ideal) x1) (val_main_v7 (F := Ideal) x2) x7 x8 b k c := by
  rw [val_main_v20_apply]
  unfold ctxArr ctxRow
  refine Finset.sum_congr rfl fun h _ => ?_
  rw [lidx20_eq, ridx20_eq, ref_soft]
  rfl

/-- The same array viewed as `[512, 512]`: row `16 b + k` is object `k` of image `b`. -/
theorem ref_ctx2d (x0 : (⟨S512x2048, .f32⟩ : BufTy).Contents (Elt Ideal)) (x1 x2 : (⟨S32x512x48x48, .f32⟩ : BufTy).Contents (Elt Ideal))
    (x7 : (⟨S2048x512, .f32⟩ : BufTy).Contents (Elt Ideal)) (x8 : (⟨S512, .f32⟩ : BufTy).Contents (Elt Ideal))
    (b : Fin 32) (k : Fin 16) (c : Fin 512) :
    val_main_v21 (F := Ideal) x0 x1 x2 x7 x8 (ix2 (row16 b k) c)
      = ctxArr x0 (val_main_v6 (F := Ideal) x1) (val_main_v7 (F := Ideal) x2) x7 x8 b k c := by
  rw [val_main_v21_apply, idx21_eq, ref_ctx]

end Cert.Ican.RefCtx

end
-- ==== Proof.RefFeat.lean ====
/-
  The reference program's feature array, read at an index, and its tail as one function.

  From the context rows `[512, 512]` the reference takes an affine layer and the positive part, joins the result to the
  feature rows along the columns (`[512, 3072]`), and takes the last affine layer and positive part with ONE product over the
  3072 columns; the sum over the 3072 columns is the sum over the first 2048 (the feature row) plus the sum over the last
  1024 (the transformed context). At `(i, j)` this is `featArr`. What follows the feature array is the pair-gathering tail.
-/
import proofs.«428669_j84610855731244_3_alg».proof.Proof.RefRead
import proofs.«428669_j84610855731244_3_alg».proof.Proof.Spec
import proofs.«428669_j84610855731244_3_alg».proof.Proof.LibRowOps
import proofs.«428669_j84610855731244_3_alg».proof.Proof.Tail
import Idealize.ShloMosaic.Lib.Pipeline.Value
import Idealize.ShloMosaic.Lib.ValueIdx
import Idealize.ShloMosaic.Lib.ValueLayout
import Idealize.ShloMosaic.PureOps.Ideal.Laws

noncomputable section

namespace Cert.Ican.RefFeat

open Cert.ReferenceIdeal Cert.ReferenceIdeal.Gen Cert.ReferenceIdeal.ReadP Cert.Ican
open Idealize.ShloMosaic Idealize.ShloMosaic.TcCoe Idealize.ShloMosaic.ValueIdx
open scoped BigOperators

open Cert.Ican.Tail

/-! ## The composed index functions at explicit coordinates -/

theorem lidx22 (i : Fin 512) (d : Fin 1024) (k : Fin 512) : lidx_main_v22 (ix2 i d) k = ix2 i k :=
  funext fun a => Fin.ext (by match a with | ⟨0, _⟩ => rfl | ⟨1, _⟩ => rfl)

theorem ridx22 (i : Fin 512) (d : Fin 1024) (k : Fin 512) : ridx_main_v22 (ix2 i d) k = ix2 k d :=
  funext fun a => Fin.ext (by match a with | ⟨0, _⟩ => rfl | ⟨1, _⟩ => rfl)

theorem idx2324 (i : Fin 512) (d : Fin 1024) : idx_main_v23 (idx_main_v24 (ix2 i d)) = ix1 d :=
  funext fun a => Fin.ext (by match a with | ⟨0, _⟩ => rfl)

theorem lidx28 (i : Fin 512) (j : Fin 1024) (k : Fin 3072) : lidx_main_v28 (ix2 i j) k = ix2 i k :=
  funext fun a => Fin.ext (by match a with | ⟨0, _⟩ => rfl | ⟨1, _⟩ => rfl)

theorem ridx28 (i : Fin 512) (j : Fin 1024) (k : Fin 3072) : ridx_main_v28 (ix2 i j) k = ix2 k j :=
  funext fun a => Fin.ext (by match a with | ⟨0, _⟩ => rfl | ⟨1, _⟩ => rfl)

theorem idx2930 (i : Fin 512) (j : Fin 1024) : idx_main_v29 (idx_main_v30 (ix2 i j)) = ix1 j :=
  funext fun a => Fin.ext (by match a with | ⟨0, _⟩ => rfl)

/-! ## The join along the columns: a `[512, 2048]` piece beside a `[512, 1024]` piece -/

/-- At column `lo f` the join reads the first piece at column `f`. -/
theorem cat_lo {α : Type} (a : S512x2048.Idx → α) (b : S512x1024.Idx → α)
    (h : Shape.Concatenates [S512x2048, S512x1024] S512x3072 1) (i : Fin 512) (f : Fin 2048) :
    concatenate S512x3072 1 [⟨S512x2048, a⟩, ⟨S512x1024, b⟩] h (ix2 i (lo f)) = a (ix2 i f) :=
  concatenate_pair_apply_left 1 a b h (ix2 i (lo f)) rfl (ix2 i f)
    (fun bb => by match bb with | ⟨0, _⟩ => rfl | ⟨1, _⟩ => rfl)

/-- At column `hi d` the join reads the second piece at column `d`. -/
theorem cat_hi {α : Type} (a : S512x2048.Idx → α) (b : S512x1024.Idx → α)
    (h : Shape.Concatenates [S512x2048, S512x1024] S512x3072 1) (i : Fin 512) (d : Fin 1024) :
    concatenate S512x3072 1 [⟨S512x2048, a⟩, ⟨S512x1024, b⟩] h (ix2 i (hi d)) = b (ix2 i d) :=
  concatenate_pair_apply_right 1 a b h (ix2 i (hi d)) rfl rfl (ix2 i d)
    (fun bb hb => by match bb with | ⟨0, _⟩ => rfl | ⟨1, _⟩ => exact absurd rfl hb)
    (by show d.val + 2048 = 2048 + d.val; omega)

/-! ## The stages, from the inside out -/

section Stages
variable (x0 : (⟨S512x2048, .f32⟩ : BufTy).Contents (Elt Ideal)) (x1 x2 : (⟨S32x512x48x48, .f32⟩ : BufTy).Contents (Elt Ideal))
  (x7 : (⟨S2048x512, .f32⟩ : BufTy).Contents (Elt Ideal)) (x8 : (⟨S512, .f32⟩ : BufTy).Contents (Elt Ideal))
  (x9 : (⟨S512x1024, .f32⟩ : BufTy).Contents (Elt Ideal)) (x10 : (⟨S1024, .f32⟩ : BufTy).Contents (Elt Ideal))
  (x11 : (⟨S3072x1024, .f32⟩ : BufTy).Contents (Elt Ideal)) (x12 : (⟨S1024, .f32⟩ : BufTy).Contents (Elt Ideal))

/-- The transformed context at `(i, d)`: the positive part of the affine layer of context row `i`. -/
theorem v26_at (i : Fin 512) (d : Fin 1024) :
    val_main_v26 (F := Ideal) x0 x1 x2 x7 x8 x9 x10 (ix2 i d)
      = tRow (fun c => val_main_v21 (F := Ideal) x0 x1 x2 x7 x8 (ix2 i c)) (fun c d' => x9 (ix2 c d'))
          (fun d' => x10 (ix1 d')) d := by
  rw [val_main_v26_apply, val_main_v25_apply, val_main_v22_apply, val_main_v24_apply, val_main_v23_apply,
    val_main_call1_v0_apply, val_main_call1_cst_apply]
  generalize val_main_v21 (F := Ideal) x0 x1 x2 x7 x8 = c
  simp only [lidx22, ridx22, idx2324, Ideal.addf_def, Ideal.maximumf_def, Ideal.ofBits_def]
  rfl

/-- The product over the 3072 joined columns at `(i, j)`, split into the feature columns and the context columns. -/
theorem v28_at (i : Fin 512) (j : Fin 1024) :
    val_main_v28 (F := Ideal) x0 x1 x2 x7 x8 x9 x10 x11 (ix2 i j)
      = (∑ f : Fin 2048, x0 (ix2 i f) * x11 (ix2 (lo f) j))
        + ∑ d : Fin 1024, val_main_v26 (F := Ideal) x0 x1 x2 x7 x8 x9 x10 (ix2 i d) * x11 (ix2 (hi d) j) := by
  rw [val_main_v28_apply]
  simp only [lidx28, ridx28]
  rw [sum3072]
  unfold val_main_v27
  generalize val_main_v26 (F := Ideal) x0 x1 x2 x7 x8 x9 x10 = t
  congr 1
  · exact Finset.sum_congr rfl fun f _ => by rw [cat_lo]
  · exact Finset.sum_congr rfl fun d _ => by rw [cat_hi]

end Stages

/-- The reference's feature array `[512, 1024]` at `(i, j)`, from its own context rows. -/
theorem ref_feat (x0 : (⟨S512x2048, .f32⟩ : BufTy).Contents (Elt Ideal)) (x1 x2 : (⟨S32x512x48x48, .f32⟩ : BufTy).Contents (Elt Ideal))
    (x7 : (⟨S2048x512, .f32⟩ : BufTy).Contents (Elt Ideal)) (x8 : (⟨S512, .f32⟩ : BufTy).Contents (Elt Ideal))
    (x9 : (⟨S512x1024, .f32⟩ : BufTy).Contents (Elt Ideal)) (x10 : (⟨S1024, .f32⟩ : BufTy).Contents (Elt Ideal))
    (x11 : (⟨S3072x1024, .f32⟩ : BufTy).Contents (Elt Ideal)) (x12 : (⟨S1024, .f32⟩ : BufTy).Contents (Elt Ideal))
    (i : Fin 512) (j : Fin 1024) :
    val_main_v32 (F := Ideal) x0 x1 x2 x7 x8 x9 x10 x11 x12 (ix2 i j)
      = featArr x0 (val_main_v21 (F := Ideal) x0 x1 x2 x7 x8) x9 x10 x11 x12 i j := by
  rw [val_main_v32_apply, val_main_v31_apply, v28_at, val_main_v30_apply, val_main_v29_apply,
    val_main_call2_v0_apply, val_main_call2_cst_apply]
  simp only [idx2930, v26_at, Ideal.addf_def, Ideal.maximumf_def, Ideal.ofBits_def]
  rfl

/-- The reference's result is the tail of its feature array and the pair table. -/
theorem ref_tail (x0 : (⟨S512x2048, .f32⟩ : BufTy).Contents (Elt Ideal)) (x1 x2 : (⟨S32x512x48x48, .f32⟩ : BufTy).Contents (Elt Ideal))
    (x4 : (⟨S32x25x2, .i32⟩ : BufTy).Contents (Elt Ideal))
    (x7 : (⟨S2048x512, .f32⟩ : BufTy).Contents (Elt Ideal)) (x8 : (⟨S512, .f32⟩ : BufTy).Contents (Elt Ideal))
    (x9 : (⟨S512x1024, .f32⟩ : BufTy).Contents (Elt Ideal)) (x10 : (⟨S1024, .f32⟩ : BufTy).Contents (Elt Ideal))
    (x11 : (⟨S3072x1024, .f32⟩ : BufTy).Contents (Elt Ideal)) (x12 : (⟨S1024, .f32⟩ : BufTy).Contents (Elt Ideal)) :
    (val_main_v45 (F := Ideal) x0 x1 x2 x4 x7 x8 x9 x10 x11 x12 : FVec Ideal Cert.KernelIdeal.S800x1024 .f32)
      = tailK (F := Ideal) (val_main_v32 (F := Ideal) x0 x1 x2 x7 x8 x9 x10 x11 x12) x4 := by
  unfold val_main_v45 val_main_v44 val_main_v43 val_main_cst_2 val_main_v42 val_main_v41
    val_main_call4_v14 val_main_call4_cst val_main_call4_v13 val_main_call4_v12 val_main_call4_v11 val_main_call4_c_3 val_main_call4_v10 val_main_call4_v9 val_main_call4_v8 val_main_call4_v7 val_main_call4_v6 val_main_call4_v5 val_main_call4_c_2 val_main_call4_c_1 val_main_call4_v4 val_main_call4_v3 val_main_call4_v2 val_main_call4_c_0 val_main_call4_v1 val_main_call4_v0 val_main_call4_c
    val_main_v40 val_main_v39 val_main_v38 val_main_v37
    val_main_call3_v14 val_main_call3_cst val_main_call3_v13 val_main_call3_v12 val_main_call3_v11 val_main_call3_c_3 val_main_call3_v10 val_main_call3_v9 val_main_call3_v8 val_main_call3_v7 val_main_call3_v6 val_main_call3_v5 val_main_call3_c_2 val_main_call3_c_1 val_main_call3_v4 val_main_call3_v3 val_main_call3_v2 val_main_call3_c_0 val_main_call3_v1 val_main_call3_v0 val_main_call3_c
    val_main_v36 val_main_v35 val_main_v34 val_main_v33
  generalize val_main_v32 (F := Ideal) x0 x1 x2 x7 x8 x9 x10 x11 x12 = y
  unfold tailK takeObj pairCol0 pairCol1
  rfl

end Cert.Ican.RefFeat

end
-- ==== Proof.Bridge.lean ====
/-
  The two programs compute one function: the kernel's result buffer at its last boundary is the reference's last stage.

  Both results are the pair-gathering tail of a feature array `[512, 1024]` and the pair table, so it is enough that the
  two feature arrays agree at every `(i, j)`. Each is `featArr` of the same feature rows and weights and of a context array
  `[512, 512]`; the two context arrays agree at every row `i = 16 b + k` because each holds there the context `ctxArr` of
  object `k` of image `b`, computed from the same arguments.
-/
import proofs.«428669_j84610855731244_3_alg».proof.Proof.Region0
import proofs.«428669_j84610855731244_3_alg».proof.Proof.Region1
import proofs.«428669_j84610855731244_3_alg».proof.Proof.HostK
import proofs.«428669_j84610855731244_3_alg».proof.Proof.RefCtx
import proofs.«428669_j84610855731244_3_alg».proof.Proof.RefFeat
import proofs.«428669_j84610855731244_3_alg».proof.Proof.Spec
import proofs.«428669_j84610855731244_3_alg».proof.Proof.Tail

set_option maxRecDepth 16384

noncomputable section

namespace Cert.Ican.Bridge

open Cert.Ican Cert.Ican.Tail
open Idealize.ShloMosaic Idealize.ShloMosaic.TcCoe Idealize.ShloMosaic.ValueIdx Idealize.SL.Sem

namespace K
open Cert.KernelIdeal Cert.KernelIdeal.Gen

variable (m : (ℓ : Loc nD τ sig) → Buf (Elt Ideal) ℓ) (ρ : Dev nD → PrngReg)

/-- The context rows region 1 finds, at row `16 b + k`: the context of object `k` of image `b`, from the arguments. -/
theorem ctx_rows (c : Dev nD) (b : Fin 32) (k : Fin 16) (cc : Fin 512) :
    V3 m ρ c main_v13 (ix2 (row16 b k) cc)
      = ctxArr (m ((c : Thread nD τ).loc main_arg0))
          (shapeCast S32x512x2304 (m ((c : Thread nD τ).loc main_arg1)) shapeCasts_S32x512x48x48_S32x512x2304)
          (shapeCast S32x512x2304 (m ((c : Thread nD τ).loc main_arg2)) shapeCasts_S32x512x48x48_S32x512x2304)
          (m ((c : Thread nD τ).loc main_arg7)) (m ((c : Thread nD τ).loc main_arg8)) b k cc := by
  rw [HostK.V3_v13, Region0.ctx_array]
  unfold ctxArr
  have h1 := funext fun f => HostK.V1_v9 m ρ c b k f
  have h2 := funext fun f => funext fun c' => HostK.V1_v0 m ρ c f c'
  have h3 := funext fun c' => HostK.V1_v6 m ρ c c'
  have h4 := funext fun c' => funext fun h => congrFun (HostK.V1_v10 m ρ c) (ix3 b c' h)
  have h5 := funext fun c' => funext fun h => congrFun (HostK.V1_v11 m ρ c) (ix3 b c' h)
  rw [h1, h2, h3, h4, h5]

/-- Region 1's output array at `(i, j)`: the output feature of row `i`, from the arguments and the context rows. -/
theorem feat_rows (c : Dev nD) (i : Fin 512) (j : Fin 1024) :
    (dat1 (F := Ideal) (V3 m ρ) c).arrAt 7 cfg1.N (ix2 i j)
      = featArr (m ((c : Thread nD τ).loc main_arg0)) (V3 m ρ c main_v13) (m ((c : Thread nD τ).loc main_arg9))
          (m ((c : Thread nD τ).loc main_arg10)) (m ((c : Thread nD τ).loc main_arg11)) (m ((c : Thread nD τ).loc main_arg12)) i j := by
  rw [Region1.feat_array]
  unfold featArr
  have h1 := funext fun f => congrFun (HostK.V3_arg0 m ρ c) (ix2 i f)
  have h2 := funext fun c' => funext fun d => HostK.V3_v1 m ρ c c' d
  have h3 := funext fun d => HostK.V3_v7 m ρ c d
  have h4 := funext fun f => funext fun j' => HostK.V3_v3 m ρ c f j'
  have h5 := funext fun d => funext fun j' => HostK.V3_v5 m ρ c d j'
  have h6 := funext fun d => HostK.V3_v8 m ρ c d
  rw [h1, h2, h3, h4, h5, h6]

end K

open Cert.ReferenceIdeal.ReadP in
/-- From memories that agree on the arguments, the reference's last stage is the kernel's result buffer at its last
    boundary: both are the tail of one feature array and one pair table. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    (val_main_v45 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) : FVec Ideal Cert.KernelIdeal.S800x1024 .f32)
      = Cert.KernelIdeal.Gen.W9 m ρ c (Proc.devRef .tc Cert.KernelIdeal.main_v27) := by
  rw [RefFeat.ref_tail, HostK.W9_out m ρ c, h4]
  refine congrArg (fun y => tailK (F := Ideal) y (m ((c.tc : Thread Cert.KernelIdeal.nD Cert.KernelIdeal.τ).loc Cert.KernelIdeal.main_arg4))) ?_
  funext idx
  obtain ⟨i, j, rfl⟩ : ∃ (i : Fin 512) (j : Fin 1024), idx = ix2 i j := ⟨idx 0, idx 1, eq_ix2 idx⟩
  obtain ⟨b, k, rfl⟩ : ∃ (b : Fin 32) (k : Fin 16), i = row16 b k := ⟨_, _, (row16_divmod i).symm⟩
  refine (RefFeat.ref_feat _ _ _ _ _ _ _ _ _ (row16 b k) j).trans ?_
  refine Eq.trans ?_ (K.feat_rows m ρ c (row16 b k) j).symm
  rw [h0, h9, h10, h11, h12]
  refine featArr_congr _ _ _ _ _ _ _ (row16 b k) j (fun cc => ?_)
  rw [K.ctx_rows m ρ c b k cc, ← h0, ← h1, ← h2, ← h7, ← h8]
  exact RefCtx.ref_ctx2d _ _ _ _ _ b k cc

end Cert.Ican.Bridge

end
-- ==== Proof.lean ====
/-
  The certificate: the fused attention-and-concatenation kernel against its reference, over the extended reals.

  Both programs compute, for each of the 512 objects, a query (an affine layer and the positive part), its attention over
  the 2304 positions of its image's key map (a softmax with the row maximum subtracted), the value map averaged with it,
  a second affine layer and positive part, and a last affine layer of the concatenated row; then both gather, for each of
  the 25 relations of an image, the two objects' features and return half their sum. The kernel computes the first part
  in one call per image and the second in one call per tile of 256 rows, with the last layer's matrix cut into the rows
  that meet the features and the rows that meet the transformed context; the reference concatenates and multiplies once.
  On the extended reals the two are one function: a change of float format is the identity, a product into a zero
  accumulator is the plain sum, and a sum over 3072 columns is the sum over the first 2048 plus the sum over the last 1024.
  The three frames are the generated ones (the reference's is its run with the result dropped); the idealization rewrote
  no operation.
-/
import proofs.«428669_j84610855731244_3_alg».proof.Defs
import proofs.«428669_j84610855731244_3_alg».proof.Proof.Gen.Kernel
import proofs.«428669_j84610855731244_3_alg».proof.Proof.Gen.Kernel.Frame
import proofs.«428669_j84610855731244_3_alg».proof.Proof.Gen.KernelIdeal
import proofs.«428669_j84610855731244_3_alg».proof.Proof.Gen.KernelIdeal.Frame
import proofs.«428669_j84610855731244_3_alg».proof.Proof.Gen.ReferenceIdeal
import proofs.«428669_j84610855731244_3_alg».proof.Proof.Gen.Pre_finite_inputs
import proofs.«428669_j84610855731244_3_alg».proof.Proof.KernelRun
import proofs.«428669_j84610855731244_3_alg».proof.Proof.RefRun
import proofs.«428669_j84610855731244_3_alg».proof.Proof.RefStage
import proofs.«428669_j84610855731244_3_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with one result: the kernel's result buffer at
    its last boundary, which is the reference's last stage (`Cert.Ican.Bridge.result_eq`). -/
theorem algebraic : Cert.algebraic_KernelIdeal_ReferenceIdeal := by
  intro m ρ m' ρ' _ hagree
  refine ⟨fun c => Cert.KernelIdeal.Gen.W9 m ρ c (Proc.devRef .tc Cert.KernelIdeal.main_v27),
    Cert.KernelIdeal.GenRun.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  exact (Cert.ReferenceIdeal.ReadP.val_main_v45_eq m' c).trans
    (Cert.Ican.Bridge.result_eq m ρ m' c h0 h1 h2 h4 h7 h8 h9 h10 h11 h12)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
